-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x16x256x256 : Shape := ⟨5, ![4, 8, 16, 256, 256]⟩
abbrev S4x8x1x256x256 : Shape := ⟨5, ![4, 8, 1, 256, 256]⟩
abbrev S_ : Shape := ⟨0, ![]⟩

class Facts : Prop where
  bcast_S_S4x8x16x256x256 : S_.BroadcastsInDim S4x8x16x256x256 (![] : Fin 0 → Fin S4x8x16x256x256.rank)
  reducesTo_S4x8x16x256x256_S_d0_1_2_3_4 : S4x8x16x256x256.ReducesTo [0, 1, 2, 3, 4] S_
  h_S_ : 0 < S_.numel
  bcast_S_S4x8x1x256x256 : S_.BroadcastsInDim S4x8x1x256x256 (![] : Fin 0 → Fin S4x8x1x256x256.rank)
  reducesTo_S4x8x1x256x256_S_d0_1_2_3_4 : S4x8x1x256x256.ReducesTo [0, 1, 2, 3, 4] S_

variable [Facts]

def fn {F : FTy → Type} [FloatOps F] (main_arg0 : FVec F S4x8x16x256x256 .f32) (main_arg1 : IVec S4x8x1x256x256 32) : IVec S_ 1 :=
  let main_v0 : FVec F S4x8x16x256x256 .f32 := Host.absf main_arg0
  let main_cst : FVec F S_ .f32 := constant S_ .f32 0x7F800000#32
  let main_v1 : FVec F S4x8x16x256x256 .f32 := broadcastInDim S4x8x16x256x256 ![] bcast_S_S4x8x16x256x256 main_cst
  let main_v2 : IVec S4x8x16x256x256 1 := cmpf .olt main_v0 main_v1
  let main_c : IVec S_ 1 := constantI S_ 1 1#1
  let main_v3 : IVec S_ 1 := (fun x v => Host.reduce IntOp.andi x v reducesTo_S4x8x16x256x256_S_d0_1_2_3_4 h_S_) main_v2 main_c
  let main_c_0 : IVec S_ 32 := constantI S_ 32 0#32
  let main_v4 : IVec S4x8x1x256x256 32 := broadcastInDim S4x8x1x256x256 ![] bcast_S_S4x8x1x256x256 main_c_0
  let main_v5 : IVec S4x8x1x256x256 1 := cmpi .sge main_arg1 main_v4
  let main_c_1 : IVec S_ 32 := constantI S_ 32 64#32
  let main_v6 : IVec S4x8x1x256x256 32 := broadcastInDim S4x8x1x256x256 ![] bcast_S_S4x8x1x256x256 main_c_1
  let main_v7 : IVec S4x8x1x256x256 1 := cmpi .slt main_arg1 main_v6
  let main_v8 : IVec S4x8x1x256x256 1 := andi main_v5 main_v7
  let main_c_2 : IVec S_ 1 := constantI S_ 1 1#1
  let main_v9 : IVec S_ 1 := (fun x v => Host.reduce IntOp.andi x v reducesTo_S4x8x1x256x256_S_d0_1_2_3_4 h_S_) main_v8 main_c_2
  let main_v10 : IVec S_ 1 := andi main_v3 main_v9
  main_v10
-- ==== Kernel.lean ====
abbrev S4x8x16x256x256 : Shape := ⟨5, ![4, 8, 16, 256, 256]⟩
abbrev S4x8x1x256x256 : Shape := ⟨5, ![4, 8, 1, 256, 256]⟩
abbrev S4x8x256x256 : Shape := ⟨4, ![4, 8, 256, 256]⟩
abbrev S4x8x16x65536 : Shape := ⟨4, ![4, 8, 16, 65536]⟩
abbrev S4x8x1x65536 : Shape := ⟨4, ![4, 8, 1, 65536]⟩
abbrev S4x8x64x17 : Shape := ⟨4, ![4, 8, 64, 17]⟩
abbrev S1x1x16x16384 : Shape := ⟨4, ![1, 1, 16, 16384]⟩
abbrev S1x1x1x16384 : Shape := ⟨4, ![1, 1, 1, 16384]⟩
abbrev S1x1x64x17 : Shape := ⟨4, ![1, 1, 64, 17]⟩
abbrev S64x17 : Shape := ⟨2, ![64, 17]⟩
abbrev S64x16384 : Shape := ⟨2, ![64, 16384]⟩
abbrev S1x16384 : Shape := ⟨2, ![1, 16384]⟩
abbrev S16x16384 : Shape := ⟨2, ![16, 16384]⟩
abbrev S17x16384 : Shape := ⟨2, ![17, 16384]⟩
abbrev S4x8x64x16 : Shape := ⟨4, ![4, 8, 64, 16]⟩
abbrev S4x8x64x1 : Shape := ⟨4, ![4, 8, 64, 1]⟩
abbrev S4x8x64 : Shape := ⟨3, ![4, 8, 64]⟩
abbrev S_ : Shape := ⟨0, ![]⟩
abbrev S64 : Shape := ⟨1, ![64]⟩
abbrev S4x7x64 : Shape := ⟨3, ![4, 7, 64]⟩
abbrev S1x1x64 : Shape := ⟨3, ![1, 1, 64]⟩
abbrev S4x7x64x16 : Shape := ⟨4, ![4, 7, 64, 16]⟩

abbrev nBuf : Space → Nat
  | .hbm => 48
  | .vmem => 7
  | .smem => 0
  | _ => 0

abbrev bufTy : (tb : Table) → Fin (tcTables nBuf tb) → BufTy
  | .hbm, ⟨0, _⟩ => ⟨S4x8x16x256x256, .f32⟩
  | .hbm, ⟨1, _⟩ => ⟨S4x8x1x256x256, .i32⟩
  | .hbm, ⟨2, _⟩ => ⟨S4x8x256x256, .i32⟩
  | .hbm, ⟨3, _⟩ => ⟨S4x8x16x65536, .f32⟩
  | .hbm, ⟨4, _⟩ => ⟨S4x8x1x65536, .i32⟩
  | .hbm, ⟨5, _⟩ => ⟨S4x8x64x17, .f32⟩
  | .hbm, ⟨6, _⟩ => ⟨S4x8x64x16, .f32⟩
  | .hbm, ⟨7, _⟩ => ⟨S4x8x64x1, .f32⟩
  | .hbm, ⟨8, _⟩ => ⟨S4x8x64, .f32⟩
  | .hbm, ⟨9, _⟩ => ⟨S_, .f32⟩
  | .hbm, ⟨10, _⟩ => ⟨S4x8x64, .f32⟩
  | .hbm, ⟨11, _⟩ => ⟨S4x8x64, .f32⟩
  | .hbm, ⟨12, _⟩ => ⟨S4x8x64x1, .f32⟩
  | .hbm, ⟨13, _⟩ => ⟨S4x8x64x16, .f32⟩
  | .hbm, ⟨14, _⟩ => ⟨S4x8x64x16, .f32⟩
  | .hbm, ⟨15, _⟩ => ⟨S_, .f32⟩
  | .hbm, ⟨16, _⟩ => ⟨S4x8x64, .f32⟩
  | .hbm, ⟨17, _⟩ => ⟨S4x8x64, .i1⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S4x7x64, .i1⟩
  | .hbm, ⟨23, _⟩ => ⟨S4x7x64, .i1⟩
  | .hbm, ⟨24, _⟩ => ⟨S4x7x64, .i1⟩
  | .hbm, ⟨25, _⟩ => ⟨S1x1x64, .i1⟩
  | .hbm, ⟨26, _⟩ => ⟨S4x7x64, .i1⟩
  | .hbm, ⟨27, _⟩ => ⟨S4x7x64, .i1⟩
  | .hbm, ⟨28, _⟩ => ⟨S4x7x64x16, .f32⟩
  | .hbm, ⟨29, _⟩ => ⟨S4x7x64x16, .f32⟩
  | .hbm, ⟨30, _⟩ => ⟨S4x7x64x16, .f32⟩
  | .hbm, ⟨31, _⟩ => ⟨S4x7x64x16, .f32⟩
  | .hbm, ⟨32, _⟩ => ⟨S_, .f32⟩
  | .hbm, ⟨33, _⟩ => ⟨S4x7x64, .f32⟩
  | .hbm, ⟨34, _⟩ => ⟨S_, .f32⟩
  | .hbm, ⟨35, _⟩ => ⟨S4x7x64, .f32⟩
  | .hbm, ⟨36, _⟩ => ⟨S4x7x64, .f32⟩
  | .hbm, ⟨37, _⟩ => ⟨S_, .f32⟩
  | .hbm, ⟨38, _⟩ => ⟨S_, .f32⟩
  | .hbm, ⟨39, _⟩ => ⟨S4x7x64, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1x1x16x16384, .f32⟩
  | .local _ .vmem, ⟨1, _⟩ => ⟨S1x1x16x16384, .f32⟩
  | .local _ .vmem, ⟨2, _⟩ => ⟨S1x1x1x16384, .i32⟩
  | .local _ .vmem, ⟨3, _⟩ => ⟨S1x1x1x16384, .i32⟩
  | .local _ .vmem, ⟨4, _⟩ => ⟨S1x1x64x17, .f32⟩
  | .local _ .vmem, ⟨5, _⟩ => ⟨S1x1x64x17, .f32⟩
  | .local _ .vmem, ⟨6, _⟩ => ⟨S64x17, .f32⟩
  | _, _ => ⟨S4x8x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_13 : BitVec 32 := 0#32
  let v26 : BitVec 1 := Scalar.cmpi .ne v25 c0_i32_13
  v26

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x8x1x256x256_S4x8x256x256 : S4x8x1x256x256.ShapeCasts S4x8x256x256
  shapeCasts_S4x8x16x256x256_S4x8x16x65536 : S4x8x16x256x256.ShapeCasts S4x8x16x65536
  shapeCasts_S4x8x256x256_S4x8x1x65536 : S4x8x256x256.ShapeCasts S4x8x1x65536
  inb_S64x17_S64x17_0_0 : ∀ a, (![0, 0] : Fin 2 → Nat) a + S64x17.size a ≤ S64x17.size a
  h_S64x17 : 0 < S64x17.numel
  shapeCasts_S64x17_S64x17 : S64x17.ShapeCasts S64x17
  iota_S64x16384_d0_w32 : S64x16384.Iotas .tc 32 [0]
  inb_S1x1x1x16384_S1x1x1x16384_0_0_0_0 : ∀ a, (![0, 0, 0, 0] : Fin 4 → Nat) a + S1x1x1x16384.size a ≤ S1x1x1x16384.size a
  h_S1x1x1x16384 : 0 < S1x1x1x16384.numel
  shapeCasts_S1x1x1x16384_S1x16384 : S1x1x1x16384.ShapeCasts S1x16384
  broadcasts_S1x16384_S64x16384 : S1x16384.Broadcasts S64x16384
  natLt_1_32 : 1 < 32
  bitsLt_bf16_f32 : FTy.bits .bf16 < FTy.bits .f32
  inb_S1x1x16x16384_S1x1x16x16384_0_0_0_0 : ∀ a, (![0, 0, 0, 0] : Fin 4 → Nat) a + S1x1x16x16384.size a ≤ S1x1x16x16384.size a
  h_S1x1x16x16384 : 0 < S1x1x16x16384.numel
  shapeCasts_S1x1x16x16384_S16x16384 : S1x1x16x16384.ShapeCasts S16x16384
  concatenates_S16x16384_S1x16384_S17x16384_d0 : Shape.Concatenates [S16x16384, S1x16384] S17x16384 0
  inb_S1x1x64x17_S1x1x64x17_0_0_0_0 : ∀ a, (![0, 0, 0, 0] : Fin 4 → Nat) a + S1x1x64x17.size a ≤ S1x1x64x17.size a
  h_S1x1x64x17 : 0 < S1x1x64x17.numel
  shapeCasts_S1x1x64x17_S64x17 : S1x1x64x17.ShapeCasts S64x17
  shapeCasts_S64x17_S1x1x64x17 : S64x17.ShapeCasts S1x1x64x17
  slices_S4x8x64x17_S4x8x64x16_0_0_0_0 : S4x8x64x17.Slices ![0, 0, 0, 0] S4x8x64x16
  slices_S4x8x64x17_S4x8x64x1_0_0_0_16 : S4x8x64x17.Slices ![0, 0, 0, 16] S4x8x64x1
  shapeCasts_S4x8x64x1_S4x8x64 : S4x8x64x1.ShapeCasts S4x8x64
  bcast_S_S4x8x64 : S_.BroadcastsInDim S4x8x64 (![] : Fin 0 → Fin S4x8x64.rank)
  bcast_S4x8x64_S4x8x64x1_0_1_2 : S4x8x64.BroadcastsInDim S4x8x64x1 (![0, 1, 2] : Fin 3 → Fin S4x8x64x1.rank)
  bcast_S4x8x64x1_S4x8x64x16_0_1_2_3 : S4x8x64x1.BroadcastsInDim S4x8x64x16 (![0, 1, 2, 3] : Fin 4 → Fin S4x8x64x16.rank)
  bcast_S_S64 : S_.BroadcastsInDim S64 (![] : Fin 0 → Fin S64.rank)
  slices_S4x8x64_S4x7x64_0_0_0 : S4x8x64.Slices ![0, 0, 0] S4x7x64
  slices_S4x8x64_S4x7x64_0_1_0 : S4x8x64.Slices ![0, 1, 0] S4x7x64
  bcast_S64_S1x1x64_2 : S64.BroadcastsInDim S1x1x64 (![2] : Fin 1 → Fin S1x1x64.rank)
  bcast_S1x1x64_S4x7x64_0_1_2 : S1x1x64.BroadcastsInDim S4x7x64 (![0, 1, 2] : Fin 3 → Fin S4x7x64.rank)
  slices_S4x8x64x16_S4x7x64x16_0_0_0_0 : S4x8x64x16.Slices ![0, 0, 0, 0] S4x7x64x16
  slices_S4x8x64x16_S4x7x64x16_0_1_0_0 : S4x8x64x16.Slices ![0, 1, 0, 0] S4x7x64x16
  reducesTo_S4x7x64x16_S4x7x64_d3 : S4x7x64x16.ReducesTo [3] S4x7x64
  h_S_ : 0 < S_.numel
  bcast_S_S4x7x64 : S_.BroadcastsInDim S4x7x64 (![] : Fin 0 → Fin S4x7x64.rank)
  reducesTo_S4x7x64_S_d0_1_2 : S4x7x64.ReducesTo [0, 1, 2] S_
  dot_S64x16384_S17x16384_S64x17_1_1_0_0_n_n_wf : DotDims.WF S64x16384 S17x16384 S64x17 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x16384.size a ≤ S4x8x16x65536.size a
  hwx0_0 : ∀ i : grid0.Coords, EltTy.bits .f32 = 32 ∨ (Rect.block (s := S4x8x16x65536) S1x1x16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x16384.size a ≤ S4x8x1x65536.size a
  hwx0_1 : ∀ i : grid0.Coords, EltTy.bits .i32 = 32 ∨ (Rect.block (s := S4x8x1x65536) S1x1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x17.size a ≤ S4x8x64x17.size a
  hwx0_2 : ∀ i : grid0.Coords, EltTy.bits .f32 = 32 ∨ (Rect.block (s := S4x8x64x17) S1x1x64x17.size (cc0_transform_2 i) (hinb0_2 i)).WholeWords (EltTy.packing .f32)

variable [Facts₀]

def dot_S64x16384_S17x16384_S64x17_1_1_0_0_n_n : DotDims S64x16384 S17x16384 S64x17 where
  lhsContracting := [1]
  rhsContracting := [1]
  lhsNonContracting := [0]
  rhsNonContracting := [0]
  lhsBatch := []
  rhsBatch := []
  wf := dot_S64x16384_S17x16384_S64x17_1_1_0_0_n_n_wf

abbrev win0_0 : Pipeline.Window sig grid0 :=
  Pipeline.Window.ofSpec (Memref.whole main_v1) S1x1x16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x64x17.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8x16x256x256 : Shape := ⟨5, ![4, 8, 16, 256, 256]⟩
abbrev S4x8x1x256x256 : Shape := ⟨5, ![4, 8, 1, 256, 256]⟩
abbrev S4x8x256x256 : Shape := ⟨4, ![4, 8, 256, 256]⟩
abbrev S32 : Shape := ⟨1, ![32]⟩
abbrev S4x8x1x1 : Shape := ⟨4, ![4, 8, 1, 1]⟩
abbrev S_ : Shape := ⟨0, ![]⟩
abbrev S2097152 : Shape := ⟨1, ![2097152]⟩
abbrev S4x8x256x256x16 : Shape := ⟨5, ![4, 8, 256, 256, 16]⟩
abbrev S2097152x16 : Shape := ⟨2, ![2097152, 16]⟩
abbrev S2048x16 : Shape := ⟨2, ![2048, 16]⟩
abbrev S2097152x1 : Shape := ⟨2, ![2097152, 1]⟩
abbrev S4x8x64x16 : Shape := ⟨4, ![4, 8, 64, 16]⟩
abbrev S2048 : Shape := ⟨1, ![2048]⟩
abbrev S4x8x64 : Shape := ⟨3, ![4, 8, 64]⟩
abbrev S4x8x64x1 : Shape := ⟨4, ![4, 8, 64, 1]⟩
abbrev S4x7x64 : Shape := ⟨3, ![4, 7, 64]⟩
abbrev S64 : Shape := ⟨1, ![64]⟩
abbrev S1x1x64 : Shape := ⟨3, ![1, 1, 64]⟩
abbrev S4x7x64x16 : Shape := ⟨4, ![4, 7, 64, 16]⟩

abbrev nBuf : Space → Nat
  | .hbm => 64
  | .vmem => 0
  | .smem => 0
  | _ => 0

abbrev bufTy : (tb : Table) → Fin (tcTables nBuf tb) → BufTy
  | .hbm, ⟨0, _⟩ => ⟨S4x8x16x256x256, .f32⟩
  | .hbm, ⟨1, _⟩ => ⟨S4x8x1x256x256, .i32⟩
  | .hbm, ⟨2, _⟩ => ⟨S4x8x256x256, .i32⟩
  | .hbm, ⟨3, _⟩ => ⟨S32, .i32⟩
  | .hbm, ⟨4, _⟩ => ⟨S4x8x1x1, .i32⟩
  | .hbm, ⟨5, _⟩ => ⟨S_, .i32⟩
  | .hbm, ⟨6, _⟩ => ⟨S4x8x1x1, .i32⟩
  | .hbm, ⟨7, _⟩ => ⟨S4x8x1x1, .i32⟩
  | .hbm, ⟨8, _⟩ => ⟨S4x8x256x256, .i32⟩
  | .hbm, ⟨9, _⟩ => ⟨S4x8x256x256, .i32⟩
  | .hbm, ⟨10, _⟩ => ⟨S2097152, .i32⟩
  | .hbm, ⟨11, _⟩ => ⟨S4x8x256x256x16, .f32⟩
  | .hbm, ⟨12, _⟩ => ⟨S2097152x16, .f32⟩
  | .hbm, ⟨13, _⟩ => ⟨S_, .f32⟩
  | .hbm, ⟨14, _⟩ => ⟨S2048x16, .f32⟩
  | .hbm, ⟨15, _⟩ => ⟨S2097152x1, .i32⟩
  | .hbm, ⟨16, _⟩ => ⟨S2048x16, .f32⟩
  | .hbm, ⟨17, _⟩ => ⟨S4x8x64x16, .f32⟩
  | .hbm, ⟨18, _⟩ => ⟨S_, .f32⟩
  | .hbm, ⟨19, _⟩ => ⟨S2097152, .f32⟩
  | .hbm, ⟨20, _⟩ => ⟨S_, .f32⟩
  | .hbm, ⟨21, _⟩ => ⟨S2048, .f32⟩
  | .hbm, ⟨22, _⟩ => ⟨S2097152x1, .i32⟩
  | .hbm, ⟨23, _⟩ => ⟨S2048, .f32⟩
  | .hbm, ⟨24, _⟩ => ⟨S4x8x64, .f32⟩
  | .hbm, ⟨25, _⟩ => ⟨S_, .f32⟩
  | .hbm, ⟨26, _⟩ => ⟨S4x8x64, .f32⟩
  | .hbm, ⟨27, _⟩ => ⟨S4x8x64, .f32⟩
  | .hbm, ⟨28, _⟩ => ⟨S4x8x64x1, .f32⟩
  | .hbm, ⟨29, _⟩ => ⟨S4x8x64x16, .f32⟩
  | .hbm, ⟨30, _⟩ => ⟨S4x8x64x16, .f32⟩
  | .hbm, ⟨31, _⟩ => ⟨S_, .f32⟩
  | .hbm, ⟨32, _⟩ => ⟨S4x8x64, .f32⟩
  | .hbm, ⟨33, _⟩ => ⟨S4x8x64, .i1⟩
  | .hbm, ⟨34, _⟩ => ⟨S4x7x64, .i1⟩
  | .hbm, ⟨35, _⟩ => ⟨S4x7x64, .i1⟩
  | .hbm, ⟨36, _⟩ => ⟨S4x7x64, .i1⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S1x1x64, .i1⟩
  | .hbm, ⟨42, _⟩ => ⟨S4x7x64, .i1⟩
  | .hbm, ⟨43, _⟩ => ⟨S4x7x64, .i1⟩
  | .hbm, ⟨44, _⟩ => ⟨S4x7x64x16, .f32⟩
  | .hbm, ⟨45, _⟩ => ⟨S4x7x64x16, .f32⟩
  | .hbm, ⟨46, _⟩ => ⟨S4x7x64x16, .f32⟩
  | .hbm, ⟨47, _⟩ => ⟨S4x7x64x16, .f32⟩
  | .hbm, ⟨48, _⟩ => ⟨S_, .f32⟩
  | .hbm, ⟨49, _⟩ => ⟨S4x7x64, .f32⟩
  | .hbm, ⟨50, _⟩ => ⟨S_, .f32⟩
  | .hbm, ⟨51, _⟩ => ⟨S4x7x64, .f32⟩
  | .hbm, ⟨52, _⟩ => ⟨S4x7x64, .f32⟩
  | .hbm, ⟨53, _⟩ => ⟨S_, .f32⟩
  | .hbm, ⟨54, _⟩ => ⟨S_, .f32⟩
  | .hbm, ⟨55, _⟩ => ⟨S4x7x64, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S_, .f32⟩
  | _, _ => ⟨S4x8x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_c_8 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  shapeCasts_S4x8x1x256x256_S4x8x256x256 : S4x8x1x256x256.ShapeCasts S4x8x256x256
  shapeCasts_S32_S4x8x1x1 : S32.ShapeCasts S4x8x1x1
  bcast_S_S4x8x1x1 : S_.BroadcastsInDim S4x8x1x1 (![] : Fin 0 → Fin S4x8x1x1.rank)
  bcast_S4x8x1x1_S4x8x256x256_0_1_2_3 : S4x8x1x1.BroadcastsInDim S4x8x256x256 (![0, 1, 2, 3] : Fin 4 → Fin S4x8x256x256.rank)
  shapeCasts_S4x8x256x256_S2097152 : S4x8x256x256.ShapeCasts S2097152
  transposes_S4x8x16x256x256_S4x8x256x256x16_0_1_3_4_2 : S4x8x16x256x256.Transposes [0, 1, 3, 4, 2] S4x8x256x256x16
  shapeCasts_S4x8x256x256x16_S2097152x16 : S4x8x256x256x16.ShapeCasts S2097152x16
  bcast_S_S2048x16 : S_.BroadcastsInDim S2048x16 (![] : Fin 0 → Fin S2048x16.rank)
  bcast_S2097152_S2097152x1_0 : S2097152.BroadcastsInDim S2097152x1 (![0] : Fin 1 → Fin S2097152x1.rank)
  shapeCasts_S2048x16_S4x8x64x16 : S2048x16.ShapeCasts S4x8x64x16
  bcast_S_S2097152 : S_.BroadcastsInDim S2097152 (![] : Fin 0 → Fin S2097152.rank)
  bcast_S_S2048 : S_.BroadcastsInDim S2048 (![] : Fin 0 → Fin S2048.rank)
  shapeCasts_S2048_S4x8x64 : S2048.ShapeCasts S4x8x64
  bcast_S_S4x8x64 : S_.BroadcastsInDim S4x8x64 (![] : Fin 0 → Fin S4x8x64.rank)
  bcast_S4x8x64_S4x8x64x1_0_1_2 : S4x8x64.BroadcastsInDim S4x8x64x1 (![0, 1, 2] : Fin 3 → Fin S4x8x64x1.rank)
  bcast_S4x8x64x1_S4x8x64x16_0_1_2_3 : S4x8x64x1.BroadcastsInDim S4x8x64x16 (![0, 1, 2, 3] : Fin 4 → Fin S4x8x64x16.rank)
  slices_S4x8x64_S4x7x64_0_0_0 : S4x8x64.Slices ![0, 0, 0] S4x7x64
  slices_S4x8x64_S4x7x64_0_1_0 : S4x8x64.Slices ![0, 1, 0] S4x7x64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S4x7x64_0_1_2 : S1x1x64.BroadcastsInDim S4x7x64 (![0, 1, 2] : Fin 3 → Fin S4x7x64.rank)
  slices_S4x8x64x16_S4x7x64x16_0_0_0_0 : S4x8x64x16.Slices ![0, 0, 0, 0] S4x7x64x16
  slices_S4x8x64x16_S4x7x64x16_0_1_0_0 : S4x8x64x16.Slices ![0, 1, 0, 0] S4x7x64x16
  reducesTo_S4x7x64x16_S4x7x64_d3 : S4x7x64x16.ReducesTo [3] S4x7x64
  h_S_ : 0 < S_.numel
  bcast_S_S4x7x64 : S_.BroadcastsInDim S4x7x64 (![] : Fin 0 → Fin S4x7x64.rank)
  reducesTo_S4x7x64_S_d0_1_2 : S4x7x64.ReducesTo [0, 1, 2] S_
  natLt_1_32 : 1 < 32
  scatter_S2048x16_S2097152x1_S2097152x16_1_0_0_1_wf : ScatterDims.WF S2048x16 S2097152x1 S2097152x16 [1] [0] [0] 1
  scatter_S2048_S2097152x1_S2097152_n_0_0_1_wf : ScatterDims.WF S2048 S2097152x1 S2097152 [] [0] [0] 1

variable [Facts₀]

def scatter_S2048x16_S2097152x1_S2097152x16_1_0_0_1 : ScatterDims S2048x16 S2097152x1 S2097152x16 where
  updateWindowDims := [1]
  insertedWindowDims := [0]
  scatterDimsToOperandDims := [0]
  indexVectorDim := 1
  wf := scatter_S2048x16_S2097152x1_S2097152x16_1_0_0_1_wf
def scatter_S2048_S2097152x1_S2097152_n_0_0_1 : ScatterDims S2048 S2097152x1 S2097152 where
  updateWindowDims := []
  insertedWindowDims := [0]
  scatterDimsToOperandDims := [0]
  indexVectorDim := 1
  wf := scatter_S2048_S2097152x1_S2097152_n_0_0_1_wf

class Facts : Prop extends Facts₀ where

variable [Facts]
-- ==== Proof.Spec.lean ====
/-
  The quantity both programs compute, as ONE function of the two argument arrays.

  The arrays: embeddings e[b, f, c, h, w] (4 batches, 8 frames, 16 channels, 256 x 256 pixels) and integer track ids
  t[b, f, 0, h, w].  A frame's 65536 pixels are numbered p = 256 h + w, which is the row-major position inside the
  frame, so reshaping e to [4, 8, 16, 65536] and t to [4, 8, 1, 65536] moves nothing.

  For batch b, frame f, track id k (0 ≤ k < 64) and channel c:
    S(b, f, k, c) = the sum of e(b, f, c, p) over the pixels p of the frame whose id is k   (`sumAt`),
    N(b, f, k)    = the number of such pixels                                               (`countAt`).
  From these the mean embedding M = S / max(N, 1); a triple (b, f, k) with f < 7 is a valid pair when k > 0 and
  both N(b, f, k) > 0 and N(b, f + 1, k) > 0; the answer is the sum over valid pairs of the squared distance
  |M(b, f, k, ·) − M(b, f + 1, k, ·)|², divided by the number of valid pairs, and 0 when there is none (`tail`).
  Everything is over the extended reals; the two literal ones and zeros stay as their words.
-/
import Idealize.ShloMosaic.PureOps
import Idealize.ShloMosaic.PureOps.Ideal
import Idealize.ShloMosaic.Lib.ValueIdx

noncomputable section

open scoped BigOperators

namespace Cert.TrackMeans

open Idealize.ShloMosaic Idealize.ShloMosaic.ValueIdx

abbrev S4x8x16x256x256 : Shape := ⟨5, ![4, 8, 16, 256, 256]⟩
abbrev S4x8x1x256x256 : Shape := ⟨5, ![4, 8, 1, 256, 256]⟩
abbrev S4x8x256x256 : Shape := ⟨4, ![4, 8, 256, 256]⟩
abbrev S4x8x16x65536 : Shape := ⟨4, ![4, 8, 16, 65536]⟩
abbrev S4x8x1x65536 : Shape := ⟨4, ![4, 8, 1, 65536]⟩
abbrev S4x8x64x17 : Shape := ⟨4, ![4, 8, 64, 17]⟩
abbrev S4x8x64x16 : Shape := ⟨4, ![4, 8, 64, 16]⟩
abbrev S4x8x64x1 : Shape := ⟨4, ![4, 8, 64, 1]⟩
abbrev S4x8x64 : Shape := ⟨3, ![4, 8, 64]⟩
abbrev S4x7x64 : Shape := ⟨3, ![4, 7, 64]⟩
abbrev S4x7x64x16 : Shape := ⟨4, ![4, 7, 64, 16]⟩
abbrev S1x1x64 : Shape := ⟨3, ![1, 1, 64]⟩
abbrev S64 : Shape := ⟨1, ![64]⟩
abbrev S_ : Shape := ⟨0, ![]⟩

/-! ## The per-frame bucket sums -/

/-- S(b, f, k, c): the embedding's channel `c` summed over the pixels of frame (b, f) whose track id is `k`
    (the id word read as a signed integer). -/
def sumAt (x : FVec Ideal S4x8x16x65536 .f32) (t : IVec S4x8x1x65536 32) (b : Fin 4) (f : Fin 8) (k : Fin 64) (c : Fin 16) : EReal :=
  ∑ p : Fin 65536, if (t (ix4 b f (0 : Fin 1) p)).toInt = (k.val : ℤ) then x (ix4 b f c p) else 0

/-- N(b, f, k): how many pixels of frame (b, f) have track id `k`. -/
def countAt (t : IVec S4x8x1x65536 32) (b : Fin 4) (f : Fin 8) (k : Fin 64) : EReal :=
  ∑ p : Fin 65536, if (t (ix4 b f (0 : Fin 1) p)).toInt = (k.val : ℤ) then 1 else 0

/-- The sums as an array [4, 8, 64, 16]. -/
def segSums (x : FVec Ideal S4x8x16x65536 .f32) (t : IVec S4x8x1x65536 32) : FVec Ideal S4x8x64x16 .f32 :=
  fun i => sumAt x t (i 0) (i 1) (i 2) (i 3)

/-- The counts as an array [4, 8, 64]. -/
def segCounts (t : IVec S4x8x1x65536 32) : FVec Ideal S4x8x64 .f32 :=
  fun i => countAt t (i 0) (i 1) (i 2)

/-- Sums and counts side by side, [4, 8, 64, 17]: columns 0 … 15 the sums, column 16 the count. -/
def segBoth (x : FVec Ideal S4x8x16x65536 .f32) (t : IVec S4x8x1x65536 32) : FVec Ideal S4x8x64x17 .f32 :=
  fun i => if h : (i 3).val < 16 then sumAt x t (i 0) (i 1) (i 2) ⟨(i 3).val, h⟩ else countAt t (i 0) (i 1) (i 2)

/-! ## From sums and counts to the answer -/

/-- The mean over valid consecutive-frame pairs of the squared distance between mean embeddings, from the sums
    and the counts: the operations both programs apply after their bucket sums, in their order. -/
def tail (sums : FVec Ideal S4x8x64x16 .f32) (counts : FVec Ideal S4x8x64 .f32) : FVec Ideal S_ .f32 :=
  let one : FVec Ideal S4x8x64 .f32 := broadcastInDim S4x8x64 ![] (by decide) (constant (F := Ideal) S_ .f32 0x3F800000#32)
  let den : FVec Ideal S4x8x64 .f32 := maximumf counts one
  let den1 : FVec Ideal S4x8x64x1 .f32 := broadcastInDim S4x8x64x1 ![0, 1, 2] (by decide) den
  let den16 : FVec Ideal S4x8x64x16 .f32 := broadcastInDim S4x8x64x16 ![0, 1, 2, 3] (by decide) den1
  let means : FVec Ideal S4x8x64x16 .f32 := Host.divf sums den16
  let zero3 : FVec Ideal S4x8x64 .f32 := broadcastInDim S4x8x64 ![] (by decide) (constant (F := Ideal) S_ .f32 0x00000000#32)
  let present : IVec S4x8x64 1 := cmpf .ogt counts zero3
  let ks : IVec S64 32 := iotaInDim S64 32 0
  let zeroK : IVec S64 32 := broadcastInDim S64 ![] (by decide) (constantI S_ 32 0#32)
  let fg : IVec S64 1 := cmpi .sgt ks zeroK
  let p0 : IVec S4x7x64 1 := extractStridedSlice S4x7x64 ![0, 0, 0] present (by decide)
  let p1 : IVec S4x7x64 1 := extractStridedSlice S4x7x64 ![0, 1, 0] present (by decide)
  let both : IVec S4x7x64 1 := andi p0 p1
  let fg1 : IVec S1x1x64 1 := broadcastInDim S1x1x64 ![2] (by decide) fg
  let fg3 : IVec S4x7x64 1 := broadcastInDim S4x7x64 ![0, 1, 2] (by decide) fg1
  let valid : IVec S4x7x64 1 := andi both fg3
  let m0 : FVec Ideal S4x7x64x16 .f32 := extractStridedSlice S4x7x64x16 ![0, 0, 0, 0] means (by decide)
  let m1 : FVec Ideal S4x7x64x16 .f32 := extractStridedSlice S4x7x64x16 ![0, 1, 0, 0] means (by decide)
  let diff : FVec Ideal S4x7x64x16 .f32 := subf m0 m1
  let sq : FVec Ideal S4x7x64x16 .f32 := mulf diff diff
  let dist : FVec Ideal S4x7x64 .f32 := Host.reduceAdd (axes := [3]) sq (constant (F := Ideal) S_ .f32 0x00000000#32) (by decide) (by decide)
  let zero7 : FVec Ideal S4x7x64 .f32 := broadcastInDim S4x7x64 ![] (by decide) (constant (F := Ideal) S_ .f32 0x00000000#32)
  let kept : FVec Ideal S4x7x64 .f32 := select valid dist zero7
  let total : FVec Ideal S_ .f32 := Host.reduceAdd (axes := [0, 1, 2]) kept (constant (F := Ideal) S_ .f32 0x00000000#32) (by decide) (by decide)
  let validI : IVec S4x7x64 32 := extui 32 valid (by decide)
  let nI : IVec S_ 32 := Host.reduce (axes := [0, 1, 2]) IntOp.addi validI (constantI S_ 32 0#32) (by decide) (by decide)
  let n : FVec Ideal S_ .f32 := sitofp .f32 nI
  let some : IVec S_ 1 := cmpf .ogt n (constant (F := Ideal) S_ .f32 0x00000000#32)
  let avg : FVec Ideal S_ .f32 := Host.divf total n
  select some avg (constant (F := Ideal) S_ .f32 0x00000000#32)

/-! ## The answer from the arguments -/

/-- The embeddings with each frame's pixels on one axis. -/
def pixels (e : FVec Ideal S4x8x16x256x256 .f32) : FVec Ideal S4x8x16x65536 .f32 :=
  shapeCast S4x8x16x65536 e (by decide)

/-- The track ids with each frame's pixels on one axis. -/
def pixelIds (t : IVec S4x8x1x256x256 32) : IVec S4x8x1x65536 32 :=
  shapeCast S4x8x1x65536 (shapeCast S4x8x256x256 t (by decide)) (by decide)

/-- What both programs return, as a function of the two arguments. -/
def answer (e : FVec Ideal S4x8x16x256x256 .f32) (t : IVec S4x8x1x256x256 32) : FVec Ideal S_ .f32 :=
  tail (segSums (pixels e) (pixelIds t)) (segCounts (pixelIds t))

end Cert.TrackMeans

end
-- ==== Proof.IdRange.lean ====
/-
  The track ids lie in [0, 64). The precondition is the conjunction of two `jnp.all`s: every embedding is finite, and
  every track id t satisfies 0 ≤ t ∧ t < 64 as a signed 32-bit word. The second half is a reduction by `and` over all five
  axes of the elementwise conjunction of two signed compares against the broadcast scalars 0 and 64. That the whole is 1
  forces the second reduction to be 1, hence its operand to be 1 at every index, hence both compares to be 1 there; a signed
  compare that is 1 is the order of the words' integer values, and the two scalars read 0 and 64.
-/
import proofs.«426372_j20083267076319_3_alg».proof.Pre_finite_inputs
import Idealize.ShloMosaic.Lib.ReduceAll

namespace Cert.TrackMeans

open Idealize.ShloMosaic
open Cert.Pre_finite_inputs

/-- A rank-0 shape has one index. -/
instance subsingleton_scalar_idx : Subsingleton S_.Idx := ⟨fun a b => funext fun d => d.elim0⟩

/-- Under the precondition every track id, read as a signed integer, lies in [0, 64). -/
theorem ids_in_range [Cert.Pre_finite_inputs.Facts] {F : FTy → Type} [FloatOps F]
    (e : FVec F Cert.Pre_finite_inputs.S4x8x16x256x256 .f32) (t : IVec Cert.Pre_finite_inputs.S4x8x1x256x256 32)
    (h : Cert.Pre_finite_inputs.fn (F := F) e t = fun _ => 1#1) :
    ∀ i, 0 ≤ (t i).toInt ∧ (t i).toInt < 64 := by
  intro i
  -- the scalar result, read at its one index
  have h0 := congrFun h (fun a => a.elim0)
  dsimp only [Cert.Pre_finite_inputs.fn] at h0
  -- the outer conjunction: keep the half that speaks of the ids
  have h1 := (IntOp.andi_eq_one.1 h0).2
  -- a reduction by `and` over every axis that is 1 had a 1 at every index
  have h2 := Host.reduce_andi_all _ _ _ _ _ h1 i
  -- the elementwise conjunction of the two compares at i
  obtain ⟨hge, hlt⟩ := IntOp.andi_eq_one.1 h2
  -- each compare is the order of the integer values; each broadcast scalar is a constant function
  have hge' : (0#32).toInt ≤ (t i).toInt := IntOp.cmpi_sge.1 hge
  have hlt' : (t i).toInt < (64#32).toInt := IntOp.cmpi_slt.1 hlt
  exact ⟨by simpa using hge', by simpa using hlt'⟩

end Cert.TrackMeans
-- ==== Proof.RefTail.lean ====
/-
  The reference's result as a function of its two bucket arrays. After the two scatter-adds the reference holds the
  per-frame sums S[4, 8, 64, 16] (operation %13) and counts N[4, 8, 64] (operation %18); operations %19 … %48 then form
  the means S / max(N, 1), the mask of valid consecutive-frame pairs (both counts positive, id > 0), the squared
  distances summed over channels, their sum over valid pairs, the number of valid pairs, and the quotient, 0 when there
  is no valid pair. `Cert.TrackMeans.tail` is that same chain of operations, in the same order and with the same literal
  words, applied to any sums and counts; the shape side conditions on either side are propositions, so the two terms
  agree once both chains are opened.
-/
import proofs.«426372_j20083267076319_3_alg».proof.Proof.RefRead
import proofs.«426372_j20083267076319_3_alg».proof.Proof.Spec

noncomputable section

namespace Cert.ReferenceIdeal.RefValue

open Idealize.ShloMosaic
open Cert.ReferenceIdeal Cert.ReferenceIdeal.Read

/-- The reference's result is `tail` of its sums (%13) and its counts (%18). -/
theorem ref_tail (x0 : FVec Ideal S4x8x16x256x256 .f32) (x1 : IVec S4x8x1x256x256 32) :
    val_main_v48 (F := Ideal) x0 x1
      = Cert.TrackMeans.tail (val_main_v13 (F := Ideal) x0 x1) (val_main_v18 (F := Ideal) x1) := by
  -- open operations %48 down to %19 (not %13 and %18: the sums and the counts stay closed)
  unfold val_main_v48 val_main_cst_10 val_main_v47 val_main_v46 val_main_cst_9 val_main_v45 val_main_v44 val_main_c_8 val_main_v43 val_main_v42 val_main_cst_7 val_main_v41 val_main_v40
    val_main_cst_6 val_main_v39 val_main_cst_5 val_main_v38 val_main_v37 val_main_v36 val_main_v35 val_main_v34 val_main_v33 val_main_v32 val_main_v31 val_main_v30 val_main_c_4
    val_main_v29 val_main_v28 val_main_v27 val_main_v26 val_main_v25 val_main_v24 val_main_cst_3 val_main_v23 val_main_v22 val_main_v21 val_main_v20 val_main_v19 val_main_cst_2
  unfold Cert.TrackMeans.tail
  -- from here on the sums and the counts are any two arrays
  generalize val_main_v13 (F := Ideal) x0 x1 = sums
  generalize val_main_v18 (F := Ideal) x1 = counts
  rfl

end Cert.ReferenceIdeal.RefValue

end
-- ==== Proof.RefScatter.lean ====
import proofs.«426372_j20083267076319_3_alg».proof.ReferenceIdeal
import Idealize.ShloMosaic.PureOps.Ideal
import Idealize.ShloMosaic.Lib.ValueIdx

open scoped BigOperators

namespace Cert.ReferenceIdeal.RefValue

open Idealize.ShloMosaic Idealize.ShloMosaic.ValueIdx Cert.ReferenceIdeal

/-! ## The two scatters' dimension numbers, read at an update index -/

/-- Rows scattered into a matrix: update (n, c) goes to row `idx[n, 0]`, column c. -/
def rowDims : ScatterDims S2048x16 S2097152x1 S2097152x16 where
  updateWindowDims := [1]
  insertedWindowDims := [0]
  scatterDimsToOperandDims := [0]
  indexVectorDim := 1
  wf := by decide

/-- Scalars scattered into a vector: update n goes to entry `idx[n, 0]`. -/
def flatDims : ScatterDims S2048 S2097152x1 S2097152 where
  updateWindowDims := []
  insertedWindowDims := [0]
  scatterDimsToOperandDims := [0]
  indexVectorDim := 1
  wf := by decide

theorem rowDims_siIdx (j : S2097152x16.Idx) (c : Fin rowDims.scatterDimsToOperandDims.length) :
    rowDims.siIdx j c = ix2 (j 0) (0 : Fin 1) := by
  funext b
  match b with
  | ⟨0, _⟩ => rfl
  | ⟨1, _⟩ =>
    apply Fin.ext
    show c.val = 0
    have := c.isLt
    change c.val < 1 at this
    omega

theorem rowDims_start0 {w : Nat} (j : S2097152x16.Idx) (idx : IVec S2097152x1 w) :
    rowDims.start j idx 0 = (idx (ix2 (j 0) (0 : Fin 1))).toInt := by
  unfold ScatterDims.start
  rw [dif_pos (by decide)]
  rw [rowDims_siIdx]
  rfl

theorem rowDims_start1 {w : Nat} (j : S2097152x16.Idx) (idx : IVec S2097152x1 w) :
    rowDims.start j idx 1 = 0 := by
  unfold ScatterDims.start
  rw [dif_neg (by decide)]

theorem rowDims_window0 (j : S2097152x16.Idx) : rowDims.window j 0 = 0 := by
  unfold ScatterDims.window
  rw [dif_neg (by decide)]

theorem rowDims_window1 (j : S2097152x16.Idx) : rowDims.window j 1 = (j 1).val := by
  unfold ScatterDims.window
  rw [dif_pos (by decide)]
  rfl

/-- Update (n, c) lands on entry (r, c') exactly when the index word of n, read signed, is r and c = c'. -/
theorem rowDims_resultIdx_some {w : Nat} (j : S2097152x16.Idx) (idx : IVec S2097152x1 w) (i : S2048x16.Idx) :
    rowDims.resultIdx? j idx = some i ↔
      (idx (ix2 (j 0) (0 : Fin 1))).toInt = ((i 0).val : ℤ) ∧ (j 1).val = (i 1).val := by
  have hi0 : (i 0).val < 2048 := (i 0).isLt
  have hi1 : (i 1).val < 16 := (i 1).isLt
  have hj1 : (j 1).val < 16 := (j 1).isLt
  unfold ScatterDims.resultIdx?
  split
  · rename_i h
    have h0 := h 0
    have h1 := h 1
    rw [rowDims_start0, rowDims_window0] at h0
    rw [rowDims_start1, rowDims_window1] at h1
    rw [Option.some.injEq]
    constructor
    · intro e
      have e0 := congrArg (fun f => (f 0).val) e
      have e1 := congrArg (fun f => (f 1).val) e
      simp only [rowDims_start0, rowDims_window0, rowDims_start1, rowDims_window1] at e0 e1
      constructor <;> omega
    · rintro ⟨e0, e1⟩
      funext a
      match a with
      | ⟨0, _⟩ =>
        apply Fin.ext
        show (rowDims.start j idx 0 + rowDims.window j 0).toNat = (i 0).val
        rw [rowDims_start0, rowDims_window0]; omega
      | ⟨1, _⟩ =>
        apply Fin.ext
        show (rowDims.start j idx 1 + rowDims.window j 1).toNat = (i 1).val
        rw [rowDims_start1, rowDims_window1]; omega
  · rename_i h
    constructor
    · intro e; exact absurd e (by simp)
    · rintro ⟨e0, e1⟩
      exfalso; apply h
      intro a
      match a with
      | ⟨0, _⟩ =>
        show 0 ≤ rowDims.start j idx 0 + rowDims.window j 0 ∧ rowDims.start j idx 0 + rowDims.window j 0 < ((2048 : ℕ) : ℤ)
        rw [rowDims_start0, rowDims_window0]; omega
      | ⟨1, _⟩ =>
        show 0 ≤ rowDims.start j idx 1 + rowDims.window j 1 ∧ rowDims.start j idx 1 + rowDims.window j 1 < ((16 : ℕ) : ℤ)
        rw [rowDims_start1, rowDims_window1]; omega

theorem flatDims_siIdx (j : S2097152.Idx) (c : Fin flatDims.scatterDimsToOperandDims.length) :
    flatDims.siIdx j c = ix2 (j 0) (0 : Fin 1) := by
  funext b
  match b with
  | ⟨0, _⟩ => rfl
  | ⟨1, _⟩ =>
    apply Fin.ext
    show c.val = 0
    have := c.isLt
    change c.val < 1 at this
    omega

theorem flatDims_start0 {w : Nat} (j : S2097152.Idx) (idx : IVec S2097152x1 w) :
    flatDims.start j idx 0 = (idx (ix2 (j 0) (0 : Fin 1))).toInt := by
  unfold ScatterDims.start
  rw [dif_pos (by decide)]
  rw [flatDims_siIdx]
  rfl

theorem flatDims_window0 (j : S2097152.Idx) : flatDims.window j 0 = 0 := by
  unfold ScatterDims.window
  rw [dif_neg (by decide)]

/-- Update n lands on entry r exactly when the index word of n, read signed, is r. -/
theorem flatDims_resultIdx_some {w : Nat} (j : S2097152.Idx) (idx : IVec S2097152x1 w) (i : S2048.Idx) :
    flatDims.resultIdx? j idx = some i ↔ (idx (ix2 (j 0) (0 : Fin 1))).toInt = ((i 0).val : ℤ) := by
  have hi0 : (i 0).val < 2048 := (i 0).isLt
  unfold ScatterDims.resultIdx?
  split
  · rename_i h
    have h0 := h 0
    rw [flatDims_start0, flatDims_window0] at h0
    rw [Option.some.injEq]
    constructor
    · intro e
      have e0 := congrArg (fun f => (f 0).val) e
      simp only [flatDims_start0, flatDims_window0] at e0
      omega
    · intro e0
      funext a
      match a with
      | ⟨0, _⟩ =>
        apply Fin.ext
        show (flatDims.start j idx 0 + flatDims.window j 0).toNat = (i 0).val
        rw [flatDims_start0, flatDims_window0]; omega
  · rename_i h
    constructor
    · intro e; exact absurd e (by simp)
    · intro e0
      exfalso; apply h
      intro a
      match a with
      | ⟨0, _⟩ =>
        show 0 ≤ flatDims.start j idx 0 + flatDims.window j 0 ∧ flatDims.start j idx 0 + flatDims.window j 0 < ((2048 : ℕ) : ℤ)
        rw [flatDims_start0, flatDims_window0]; omega

/-! ## The flat position of a pixel, and sums over all positions -/

/-- The row-major position of pixel `p` of frame (b, f) among all 4·8·65536 pixels. -/
def pos (b : Fin 4) (f : Fin 8) (p : Fin 65536) : Fin 2097152 :=
  ⟨65536 * (8 * b.val + f.val) + p.val, by have := b.isLt; have := f.isLt; have := p.isLt; omega⟩

/-- Positions are triples (batch, frame, pixel). -/
def posEquiv : Fin 4 × Fin 8 × Fin 65536 ≃ Fin 2097152 where
  toFun t := pos t.1 t.2.1 t.2.2
  invFun n := (⟨n.val / 524288, by have := n.isLt; omega⟩, ⟨n.val / 65536 % 8, by omega⟩, ⟨n.val % 65536, by omega⟩)
  left_inv t := by
    obtain ⟨b, f, p⟩ := t
    have := b.isLt; have := f.isLt; have := p.isLt
    refine Prod.ext (Fin.ext ?_) (Prod.ext (Fin.ext ?_) (Fin.ext ?_))
    · show (65536 * (8 * b.val + f.val) + p.val) / 524288 = b.val; omega
    · show (65536 * (8 * b.val + f.val) + p.val) / 65536 % 8 = f.val; omega
    · show (65536 * (8 * b.val + f.val) + p.val) % 65536 = p.val; omega
  right_inv n := by
    apply Fin.ext
    have := n.isLt
    show 65536 * (8 * (n.val / 524288) + n.val / 65536 % 8) + n.val % 65536 = n.val
    omega

/-- A sum over all positions is the sum over batches, frames and pixels. -/
theorem sum_pos {M : Type*} [AddCommMonoid M] (G : Fin 2097152 → M) :
    ∑ n, G n = ∑ b : Fin 4, ∑ f : Fin 8, ∑ p : Fin 65536, G (pos b f p) := by
  rw [← Equiv.sum_comp posEquiv G, Fintype.sum_prod_type]
  refine Finset.sum_congr rfl fun b _ => ?_
  rw [Fintype.sum_prod_type]
  rfl

/-- A sum over batches, frames and pixels whose terms vanish off one frame is that frame's sum. -/
theorem sum_one_frame {M : Type*} [AddCommMonoid M] (b : Fin 4) (f : Fin 8) (H : Fin 4 → Fin 8 → Fin 65536 → M)
    (h0 : ∀ b' f' p, ¬(b' = b ∧ f' = f) → H b' f' p = 0) :
    ∑ b' : Fin 4, ∑ f' : Fin 8, ∑ p : Fin 65536, H b' f' p = ∑ p : Fin 65536, H b f p := by
  rw [Finset.sum_eq_single b, Finset.sum_eq_single f]
  · intro f' _ hf
    exact Finset.sum_eq_zero fun p _ => h0 b f' p (fun h => hf h.2)
  · intro h; exact absurd (Finset.mem_univ f) h
  · intro b' _ hb
    exact Finset.sum_eq_zero fun f' _ => Finset.sum_eq_zero fun p _ => h0 b' f' p (fun h => hb h.1)
  · intro h; exact absurd (Finset.mem_univ b) h

/-! ## The segment id word -/

/-- The 32-bit word `frame · 64 + id` read signed, for a frame below 32 and an id in [0, 64): nothing wraps. -/
theorem seg_word_toInt (a : ℕ) (ha : a < 32) (x : BitVec 32) (h0 : 0 ≤ x.toInt) (h1 : x.toInt < 64) :
    (IntOp.addi (IntOp.muli (BitVec.ofNat 32 a) 64#32) x).toInt = 64 * (a : ℤ) + x.toInt := by
  unfold IntOp.addi IntOp.muli
  have hx := x.isLt
  rw [BitVec.toInt_eq_toNat_cond] at h0 h1
  have hxn : x.toNat < 64 := by
    split at h0 <;> omega
  have hxi : x.toInt = (x.toNat : ℤ) := by
    rw [BitVec.toInt_eq_toNat_cond, if_pos (by omega)]
  rw [hxi, BitVec.toInt_eq_toNat_cond, BitVec.toNat_add, BitVec.toNat_mul, BitVec.toNat_ofNat]
  have e : (a % 2 ^ 32 * (64#32).toNat % 2 ^ 32 + x.toNat) % 2 ^ 32 = 64 * a + x.toNat := by
    show (a % 2 ^ 32 * 64 % 2 ^ 32 + x.toNat) % 2 ^ 32 = 64 * a + x.toNat
    omega
  rw [e, if_pos (by omega)]
  push_cast
  ring

end Cert.ReferenceIdeal.RefValue
-- ==== Proof.RefOperands.lean ====
import proofs.«426372_j20083267076319_3_alg».proof.Proof.RefRead
import proofs.«426372_j20083267076319_3_alg».proof.Proof.Spec
import proofs.«426372_j20083267076319_3_alg».proof.Proof.RefScatter
import Idealize.ShloMosaic.Lib.IdealHost

open scoped BigOperators

namespace Cert.ReferenceIdeal.RefValue

open Idealize.ShloMosaic Idealize.ShloMosaic.ValueIdx Cert.ReferenceIdeal Cert.ReferenceIdeal.Read
open Cert.TrackMeans (sumAt countAt segSums segCounts pixels pixelIds)

/-! ## The scattered operands at a pixel's flat position -/

/-- The id array flattened to all positions, at the position of pixel p of frame (b, f), is that frame's id of p. -/
theorem ids_at (x1 : IVec S4x8x1x256x256 32) (b : Fin 4) (f : Fin 8) (p : Fin 65536) :
    x1 (idx_main_v0 (idx_main_v7 (ix1 (pos b f p)))) = pixelIds x1 (ix4 b f (0 : Fin 1) p) := by
  have hb := b.isLt; have hf := f.isLt; have hp := p.isLt
  symm
  unfold pixelIds
  rw [shapeCast_apply _ _ (ix4 b f (0 : Fin 1) p) (idx_main_v7 (ix1 (pos b f p)))
    (by rewrite [Shape.rowMajor_val_four, Shape.rowMajor_val_four]
        show (((65536 * (8 * b.val + f.val) + p.val) / 524288 * 8 + (65536 * (8 * b.val + f.val) + p.val) / 65536 % 8) * 256
              + (65536 * (8 * b.val + f.val) + p.val) / 256 % 256) * 256 + (65536 * (8 * b.val + f.val) + p.val) % 256
            = ((b.val * 8 + f.val) * 1 + 0) * 65536 + p.val
        omega)]
  exact val_main_v0_apply (F := Ideal) x1 (idx_main_v7 (ix1 (pos b f p)))

theorem ids_range (x1 : IVec S4x8x1x256x256 32) (hr : ∀ i, 0 ≤ (x1 i).toInt ∧ (x1 i).toInt < 64)
    (b : Fin 4) (f : Fin 8) (p : Fin 65536) :
    0 ≤ (pixelIds x1 (ix4 b f (0 : Fin 1) p)).toInt ∧ (pixelIds x1 (ix4 b f (0 : Fin 1) p)).toInt < 64 := by
  rw [← ids_at]; exact hr _

/-- The segment id at the position of pixel p of frame (b, f): 64 · (8 b + f) + the pixel's id. -/
theorem seg_at (x1 : IVec S4x8x1x256x256 32) (hr : ∀ i, 0 ≤ (x1 i).toInt ∧ (x1 i).toInt < 64)
    (b : Fin 4) (f : Fin 8) (p : Fin 65536) :
    (val_main_v11 (F := Ideal) x1 (ix2 (pos b f p) (0 : Fin 1))).toInt
      = 64 * (8 * (b.val : ℤ) + (f.val : ℤ)) + (pixelIds x1 (ix4 b f (0 : Fin 1) p)).toInt := by
  have hb := b.isLt; have hf := f.isLt; have hp := p.isLt
  have e : idx_main_v11 (ix2 (pos b f p) (0 : Fin 1)) = ix1 (pos b f p) := by
    funext a; match a with | ⟨0, _⟩ => rfl
  have hn : (idx_main_v2 (idx_main_v5 (idx_main_v7 (ix1 (pos b f p)))) 0).val = 8 * b.val + f.val := by
    show ((((65536 * (8 * b.val + f.val) + p.val) / 524288) * 8 + (65536 * (8 * b.val + f.val) + p.val) / 65536 % 8) * 1 + 0) * 1 + 0
      = 8 * b.val + f.val
    omega
  rw [val_main_v11_apply, e, val_main_v7_apply, val_main_v6_apply, val_main_v5_apply, val_main_v4_apply,
    val_main_v3_apply, val_main_c_apply, val_main_v2_apply, val_main_v1_apply, val_main_v0_apply, hn,
    seg_word_toInt _ (by omega) _ (hr _).1 (hr _).2, ids_at x1 b f p]
  push_cast
  ring

/-- The embeddings flattened to [positions, channels], at the position of pixel p of frame (b, f). -/
theorem data_at (x0 : FVec Ideal S4x8x16x256x256 .f32) (b : Fin 4) (f : Fin 8) (p : Fin 65536) (c : Fin 16) :
    val_main_v9 (F := Ideal) x0 (ix2 (pos b f p) c) = pixels x0 (ix4 b f c p) := by
  have hb := b.isLt; have hf := f.isLt; have hp := p.isLt; have hc := c.isLt
  rw [val_main_v9_apply, val_main_v8_apply]
  symm
  unfold pixels
  exact shapeCast_apply x0 _ (ix4 b f c p) (idx_main_v8 (idx_main_v9 (ix2 (pos b f p) c)))
    (by rewrite [Shape.rowMajor_val_five, Shape.rowMajor_val_four]
        show (((((65536 * (8 * b.val + f.val) + p.val) * 16 + c.val) / 8388608 * 8
                + ((65536 * (8 * b.val + f.val) + p.val) * 16 + c.val) / 1048576 % 8) * 16
                + ((65536 * (8 * b.val + f.val) + p.val) * 16 + c.val) % 16) * 256
                + ((65536 * (8 * b.val + f.val) + p.val) * 16 + c.val) / 4096 % 256) * 256
                + ((65536 * (8 * b.val + f.val) + p.val) * 16 + c.val) / 16 % 256
            = ((b.val * 8 + f.val) * 16 + c.val) * 65536 + p.val
        obtain ⟨m, hm⟩ : ∃ m, m = (65536 * (8 * b.val + f.val) + p.val) * 16 + c.val := ⟨_, rfl⟩
        rw [← hm]
        have h1 : m / 8388608 = b.val := by omega
        have h2 : m / 1048576 % 8 = f.val := by omega
        have h3 : m % 16 = c.val := by omega
        have h4 : m / 4096 % 256 = p.val / 256 := by omega
        have h5 : m / 16 % 256 = p.val % 256 := by omega
        rw [h1, h2, h3, h4, h5]
        omega)

end Cert.ReferenceIdeal.RefValue
-- ==== Proof.RefBuckets.lean ====
import proofs.«426372_j20083267076319_3_alg».proof.Proof.RefOperands
import Idealize.ShloMosaic.Lib.IdealHost

open scoped BigOperators

namespace Cert.ReferenceIdeal.RefValue

open Idealize.ShloMosaic Idealize.ShloMosaic.ValueIdx Cert.ReferenceIdeal Cert.ReferenceIdeal.Read
open Cert.TrackMeans (sumAt countAt segSums segCounts pixels pixelIds)

/-- The accumulating scatter over the extended reals, read at one entry: the operand's entry plus every update
    that lands there. -/
theorem scatterAdd_apply {s si su : Shape} (d : ScatterDims s si su) {w : Nat} (x : FVec Ideal s .f32)
    (idx : IVec si w) (upd : FVec Ideal su .f32) (i : s.Idx) :
    Host.scatterAdd d x idx upd i = x i + ∑ j, if d.resultIdx? j idx = some i then upd j else 0 := by
  unfold Host.scatterAdd
  rw [Ideal.hostScatterAdd_def]
  unfold Ideal.hostScatterAdd
  rw [Finset.sum_filter]

/-- The scattered matrix at one entry: the sum of the updates landing there (the operand is all zeros). -/
theorem v12_as_sum (x0 : FVec Ideal S4x8x16x256x256 .f32) (x1 : IVec S4x8x1x256x256 32) (i : S2048x16.Idx) :
    val_main_v12 (F := Ideal) x0 x1 i
      = ∑ j : S2097152x16.Idx, if rowDims.resultIdx? j (val_main_v11 (F := Ideal) x1) = some i
          then val_main_v9 (F := Ideal) x0 j else 0 := by
  have hD : scatter_S2048x16_S2097152x1_S2097152x16_1_0_0_1 = rowDims := rfl
  unfold val_main_v12
  rw [scatterAdd_apply, hD, val_main_v10_apply, val_main_cst_apply]
  show Ideal.ofBits .f32 0x00000000#32 + _ = _
  rw [Ideal.ofBits_zero_f32, zero_add]

/-- The same, with landing spelled out: the segment id word, read signed, is the row, and the columns agree. -/
theorem v12_by_word (x0 : FVec Ideal S4x8x16x256x256 .f32) (x1 : IVec S4x8x1x256x256 32) (i : S2048x16.Idx) :
    val_main_v12 (F := Ideal) x0 x1 i
      = ∑ j : S2097152x16.Idx, if ((val_main_v11 (F := Ideal) x1 (ix2 (j 0) (0 : Fin 1))).toInt = ((i 0).val : ℤ)
            ∧ (j 1).val = (i 1).val) then val_main_v9 (F := Ideal) x0 j else 0 := by
  rw [v12_as_sum]
  simp only [rowDims_resultIdx_some]

/-- The same as a double sum over positions and channels. -/
theorem v12_by_position (x0 : FVec Ideal S4x8x16x256x256 .f32) (x1 : IVec S4x8x1x256x256 32) (i : S2048x16.Idx) :
    val_main_v12 (F := Ideal) x0 x1 i
      = ∑ n : Fin 2097152, ∑ c' : Fin 16,
          if ((val_main_v11 (F := Ideal) x1 (ix2 n (0 : Fin 1))).toInt = ((i 0).val : ℤ)
            ∧ c'.val = (i 1).val) then val_main_v9 (F := Ideal) x0 (ix2 n c') else 0 := by
  rw [v12_by_word, sum_idx2]

/-- Only the entry's own channel contributes. -/
theorem v12_one_column (x0 : FVec Ideal S4x8x16x256x256 .f32) (x1 : IVec S4x8x1x256x256 32) (i : S2048x16.Idx)
    (c : Fin 16) (hi1 : (i 1).val = c.val) :
    val_main_v12 (F := Ideal) x0 x1 i
      = ∑ n : Fin 2097152,
          if (val_main_v11 (F := Ideal) x1 (ix2 n (0 : Fin 1))).toInt = ((i 0).val : ℤ)
            then val_main_v9 (F := Ideal) x0 (ix2 n c) else 0 := by
  rw [v12_by_position]
  refine Fintype.sum_congr _ _ fun n => ?_
  rw [Finset.sum_eq_single c]
  · refine if_congr ?_ rfl rfl
    rw [hi1]
    exact and_iff_left rfl
  · intro c' _ hc'
    rw [if_neg]
    rintro ⟨_, h⟩
    apply hc'
    apply Fin.ext
    omega
  · intro h; exact absurd (Finset.mem_univ c) h

/-- Two segment ids 64 · frame + id with ids in [0, 64) agree only on one frame. -/
theorem frame_of_seg {b b' : Fin 4} {f f' : Fin 8} {k : Fin 64} {t : ℤ} (h0 : 0 ≤ t) (h1 : t < 64)
    (e : 64 * (8 * (b'.val : ℤ) + (f'.val : ℤ)) + t = ((64 * (8 * b.val + f.val) + k.val : ℕ) : ℤ)) :
    b' = b ∧ f' = f := by
  have := b.isLt; have := b'.isLt; have := f.isLt; have := f'.isLt; have := k.isLt
  push_cast at e
  constructor <;> apply Fin.ext <;> omega

/-- Entry (64 (8 b + f) + k, c) of the scattered matrix: the channel-c sum over frame (b, f)'s pixels of id k. -/
theorem v12_at (x0 : FVec Ideal S4x8x16x256x256 .f32) (x1 : IVec S4x8x1x256x256 32)
    (hr : ∀ i, 0 ≤ (x1 i).toInt ∧ (x1 i).toInt < 64) (i : S2048x16.Idx)
    (b : Fin 4) (f : Fin 8) (k : Fin 64) (c : Fin 16)
    (hi0 : (i 0).val = 64 * (8 * b.val + f.val) + k.val) (hi1 : (i 1).val = c.val) :
    val_main_v12 (F := Ideal) x0 x1 i = sumAt (pixels x0) (pixelIds x1) b f k c := by
  rw [v12_one_column x0 x1 i c hi1, sum_pos, sum_one_frame b f]
  · unfold sumAt
    refine Fintype.sum_congr _ _ fun p => ?_
    rw [data_at]
    refine if_congr ?_ rfl rfl
    rw [seg_at x1 hr, hi0]
    push_cast
    constructor <;> intro h <;> omega
  · intro b' f' p hne
    rw [if_neg]
    intro h
    rw [seg_at x1 hr, hi0] at h
    exact hne (frame_of_seg (ids_range x1 hr b' f' p).1 (ids_range x1 hr b' f' p).2 h)

/-- The reference's segment sums, reshaped to [4, 8, 64, 16], are the per-frame bucket sums. -/
theorem sums_eq (x0 : FVec Ideal S4x8x16x256x256 .f32) (x1 : IVec S4x8x1x256x256 32)
    (hr : ∀ i, 0 ≤ (x1 i).toInt ∧ (x1 i).toInt < 64) :
    val_main_v13 (F := Ideal) x0 x1 = segSums (pixels x0) (pixelIds x1) := by
  funext i
  obtain ⟨b, f, k, c, rfl⟩ : ∃ (b : Fin 4) (f : Fin 8) (k : Fin 64) (c : Fin 16), i = ix4 b f k c :=
    ⟨i 0, i 1, i 2, i 3, eq_ix4 i⟩
  have hb := b.isLt; have hf := f.isLt; have hk := k.isLt; have hc := c.isLt
  rw [val_main_v13_apply]
  exact v12_at x0 x1 hr _ b f k c
    (by show (((b.val * 8 + f.val) * 64 + k.val) * 16 + c.val) / 16 = 64 * (8 * b.val + f.val) + k.val; omega)
    (by show (((b.val * 8 + f.val) * 64 + k.val) * 16 + c.val) % 16 = c.val; omega)

/-! ## The counts -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The scattered vector at one entry: one for every update landing there (the operand is all zeros). -/
theorem v17_as_sum (x1 : IVec S4x8x1x256x256 32) (i : S2048.Idx) :
    val_main_v17 (F := Ideal) x1 i
      = ∑ j : S2097152.Idx, if flatDims.resultIdx? j (val_main_v11 (F := Ideal) x1) = some i
          then (1 : EReal) else 0 := by
  have hD : scatter_S2048_S2097152x1_S2097152_n_0_0_1 = flatDims := rfl
  have h16 : val_main_v16 (F := Ideal) x1 = val_main_v11 (F := Ideal) x1 := rfl
  unfold val_main_v17
  rw [scatterAdd_apply, hD, h16, val_main_v15_apply, val_main_cst_1_apply]
  show Ideal.ofBits .f32 0x00000000#32 + _ = _
  rw [Ideal.ofBits_zero_f32, zero_add]
  refine Fintype.sum_congr _ _ fun j => ?_
  rw [val_main_v14_apply, val_main_cst_0_apply]
  show (if _ then Ideal.ofBits .f32 0x3F800000#32 else 0) = _
  rw [Ideal.ofBits_one_f32]

/-- The same as a sum over positions, landing spelled out by the segment id word. -/
theorem v17_by_position (x1 : IVec S4x8x1x256x256 32) (i : S2048.Idx) :
    val_main_v17 (F := Ideal) x1 i
      = ∑ n : Fin 2097152, if (val_main_v11 (F := Ideal) x1 (ix2 n (0 : Fin 1))).toInt = ((i 0).val : ℤ)
          then (1 : EReal) else 0 := by
  rw [v17_as_sum]
  simp only [flatDims_resultIdx_some]
  rw [sum_idx1]

/-- Entry 64 (8 b + f) + k of the scattered vector: how many of frame (b, f)'s pixels have id k. -/
theorem v17_at (x1 : IVec S4x8x1x256x256 32) (hr : ∀ i, 0 ≤ (x1 i).toInt ∧ (x1 i).toInt < 64) (i : S2048.Idx)
    (b : Fin 4) (f : Fin 8) (k : Fin 64) (hi0 : (i 0).val = 64 * (8 * b.val + f.val) + k.val) :
    val_main_v17 (F := Ideal) x1 i = countAt (pixelIds x1) b f k := by
  rw [v17_by_position, sum_pos, sum_one_frame b f]
  · unfold countAt
    refine Fintype.sum_congr _ _ fun p => ?_
    refine if_congr ?_ rfl rfl
    rw [seg_at x1 hr, hi0]
    push_cast
    constructor <;> intro h <;> omega
  · intro b' f' p hne
    rw [if_neg]
    intro h
    rw [seg_at x1 hr, hi0] at h
    exact hne (frame_of_seg (ids_range x1 hr b' f' p).1 (ids_range x1 hr b' f' p).2 h)

/-- The reference's segment counts, reshaped to [4, 8, 64], are the per-frame bucket counts. -/
theorem counts_eq (x1 : IVec S4x8x1x256x256 32) (hr : ∀ i, 0 ≤ (x1 i).toInt ∧ (x1 i).toInt < 64) :
    val_main_v18 (F := Ideal) x1 = segCounts (pixelIds x1) := by
  funext i
  obtain ⟨b, f, k, rfl⟩ : ∃ (b : Fin 4) (f : Fin 8) (k : Fin 64), i = ix3 b f k := ⟨i 0, i 1, i 2, eq_ix3 i⟩
  have hb := b.isLt; have hf := f.isLt; have hk := k.isLt
  rw [val_main_v18_apply]
  exact v17_at x1 hr _ b f k
    (by show (b.val * 8 + f.val) * 64 + k.val = 64 * (8 * b.val + f.val) + k.val; omega)

end Cert.ReferenceIdeal.RefValue
-- ==== Proof.Steps.lean ====
/-
  What one grid point's body leaves behind, case by case.

  The body keeps a 64 x 17 accumulator (bucket k, column c) across the four chunks of a frame:
    * at a frame's first chunk it stores the zero block, reads it back, and stores zero block + this chunk's contribution;
    * at a middle chunk it stores accumulator + this chunk's contribution;
    * at the last chunk it does the same and then copies the accumulator, reshaped to 1 x 1 x 64 x 17, into the output block.
  Each store covers its whole buffer, so what a buffer holds afterwards is the last stored value, with every load
  inside it read back from the store before it.  These lemmas name those values by the body's three stored terms.
-/
import proofs.«426372_j20083267076319_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- First chunk of a frame: the accumulator ends at the chunk's contribution added to the zero block. -/
theorem acc_first (c : Dev nD) (i : grid0.Coords) (a3 : Memref sig .tc .vmem S1x1x16x16384 .f32) (h3 : a3.IsWhole)
    (a4 : Memref sig .tc .vmem S1x1x1x16384 .i32) (h4 : a4.IsWhole) (a5 : Memref sig .tc .vmem S1x1x64x17 .f32) (h5 : a5.IsWhole)
    (a6 : Memref sig .tc .vmem S64x17 .f32) (h6 : a6.IsWhole) (hc0 : cond0_0 i) (hc1 : ¬cond0_1 i)
    (x0 : Vec F S1x1x16x16384 .f32) (x1 : Vec F S1x1x1x16384 .i32) :
    sout0_A_0 c i a3 h3 a4 h4 a5 h5 a6 h6 hc0 hc1 x0 x1 = k0_pay2 x1 x0 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S64x17) hz2]
  simp only [View.readAt_eq_ld, h3.read_unread, h4.read_unread, View.ld_unit_zero (S := S1x1x16x16384) hz4,
    View.ld_unit_zero (S := S1x1x1x16384) hz4, View.readCov_unit_zero (S := S64x17) _ hz2]

/-- A middle chunk: the accumulator ends at what it held plus the chunk's contribution. -/
theorem acc_middle (c : Dev nD) (i : grid0.Coords) (a3 : Memref sig .tc .vmem S1x1x16x16384 .f32) (h3 : a3.IsWhole)
    (a4 : Memref sig .tc .vmem S1x1x1x16384 .i32) (h4 : a4.IsWhole) (a5 : Memref sig .tc .vmem S1x1x64x17 .f32) (h5 : a5.IsWhole)
    (a6 : Memref sig .tc .vmem S64x17 .f32) (h6 : a6.IsWhole) (hc0 : ¬cond0_0 i) (hc1 : ¬cond0_1 i)
    (x0 : Vec F S1x1x16x16384 .f32) (x1 : Vec F S1x1x1x16384 .i32) (xs0 : Vec F S64x17 .f32) :
    sout0_B_0 c i a3 h3 a4 h4 a5 h5 a6 h6 hc0 hc1 x0 x1 xs0 = k0_pay2 x1 x0 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h6.read_unread, View.ld_unit_zero (S := S1x1x16x16384) hz4,
    View.ld_unit_zero (S := S1x1x1x16384) hz4, View.ld_unit_zero (S := S64x17) hz2]

/-- Last chunk of a frame: the accumulator ends at what it held plus the chunk's contribution … -/
theorem acc_last (c : Dev nD) (i : grid0.Coords) (a3 : Memref sig .tc .vmem S1x1x16x16384 .f32) (h3 : a3.IsWhole)
    (a4 : Memref sig .tc .vmem S1x1x1x16384 .i32) (h4 : a4.IsWhole) (a5 : Memref sig .tc .vmem S1x1x64x17 .f32) (h5 : a5.IsWhole)
    (a6 : Memref sig .tc .vmem S64x17 .f32) (h6 : a6.IsWhole) (hc0 : ¬cond0_0 i) (hc1 : cond0_1 i)
    (x0 : Vec F S1x1x16x16384 .f32) (x1 : Vec F S1x1x1x16384 .i32) (xs0 : Vec F S64x17 .f32) :
    sout0_C_0 c i a3 h3 a4 h4 a5 h5 a6 h6 hc0 hc1 x0 x1 xs0 = k0_pay2 x1 x0 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.ld_unit_zero (S := S1x1x16x16384) hz4,
    View.ld_unit_zero (S := S1x1x1x16384) hz4, View.ld_unit_zero (S := S64x17) hz2]

/-- … and the output block ends at that accumulator, reshaped. -/
theorem out_last (c : Dev nD) (i : grid0.Coords) (a3 : Memref sig .tc .vmem S1x1x16x16384 .f32) (h3 : a3.IsWhole)
    (a4 : Memref sig .tc .vmem S1x1x1x16384 .i32) (h4 : a4.IsWhole) (a5 : Memref sig .tc .vmem S1x1x64x17 .f32) (h5 : a5.IsWhole)
    (a6 : Memref sig .tc .vmem S64x17 .f32) (h6 : a6.IsWhole) (hc0 : ¬cond0_0 i) (hc1 : cond0_1 i)
    (x0 : Vec F S1x1x16x16384 .f32) (x1 : Vec F S1x1x1x16384 .i32) (xs0 : Vec F S64x17 .f32) :
    out0_C_2 c i a3 h3 a4 h4 a5 h5 a6 h6 hc0 hc1 x0 x1 xs0 = k0_pay3 (k0_pay2 x1 x0 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz4]
  simp only [View.readAt_eq_ld, h3.read_unread, h4.read_unread, h6.read_unread, View.ld_unit_zero (S := S1x1x16x16384) hz4,
    View.ld_unit_zero (S := S1x1x1x16384) hz4, View.ld_unit_zero (S := S64x17) hz2, View.readCov_unit_zero (S := S64x17) _ hz2]

end Cert.KernelIdeal.Steps

end
-- ==== Proof.Chunk.lean ====
/-
  One grid point's contribution to the bucket sums.

  The pixel axis of a frame is cut into 4 chunks of 16384 pixels; a grid point sees one chunk: the ids
  ids[0, 0, 0, q] and the embeddings x[0, 0, c, q], q < 16384.  Its contribution to bucket k, column c, is the sum over
  the chunk's pixels whose id is k of x[c, q] for a channel column c < 16, and of 1 for the count column c = 16.
  Summing the four chunks' contributions gives the frame's bucket sums, because pixel p = 16384 j + q runs through
  the frame once as (j, q) runs through chunks and positions.
-/
import Idealize.ShloMosaic.PureOps
import Idealize.ShloMosaic.PureOps.Ideal
import Idealize.ShloMosaic.Lib.ValueIdx

noncomputable section

open scoped BigOperators

namespace Cert.TrackMeans

open Idealize.ShloMosaic Idealize.ShloMosaic.ValueIdx

abbrev S1x1x16x16384 : Shape := ⟨4, ![1, 1, 16, 16384]⟩
abbrev S1x1x1x16384 : Shape := ⟨4, ![1, 1, 1, 16384]⟩
abbrev S64x17 : Shape := ⟨2, ![64, 17]⟩

/-- What a chunk adds to bucket `k`, column `c` (columns 0 … 15 the channels, column 16 the count). -/
def chunkAt (ids : IVec S1x1x1x16384 32) (x : FVec Ideal S1x1x16x16384 .f32) (k : Fin 64) (c : Fin 17) : EReal :=
  ∑ q : Fin 16384, if (ids (ix4 (0 : Fin 1) (0 : Fin 1) (0 : Fin 1) q)).toInt = (k.val : ℤ)
    then (if h : c.val < 16 then x (ix4 (0 : Fin 1) (0 : Fin 1) (⟨c.val, h⟩ : Fin 16) q) else 1) else 0

/-- A sum over the 65536 pixels of a frame is the sum over its 4 chunks of the sum over a chunk's 16384 positions. -/
theorem sum_pixels_eq_chunks {M : Type*} [AddCommMonoid M] (g : Fin 65536 → M) :
    ∑ p : Fin 65536, g p
      = ∑ j : Fin 4, ∑ q : Fin 16384, g ⟨16384 * j.val + q.val, by have := j.isLt; have := q.isLt; omega⟩ := by
  rw [← Finset.sum_product', Finset.univ_product_univ]
  refine (Fintype.sum_equiv (finProdFinEquiv (m := 4) (n := 16384)) _ _ (fun jq => ?_)).symm
  congr 1
  apply Fin.ext
  show 16384 * jq.1.val + jq.2.val = jq.2.val + 16384 * jq.1.val
  omega

end Cert.TrackMeans

end
-- ==== Proof.Blocks.lean ====
/-
  Where a grid point's blocks sit in the arrays.

  The grid has 128 points t = 32 b + 4 f + j: batch b = t / 32, frame f = t / 4 mod 8, chunk j = t mod 4.  At point t
  the embeddings' block is x[b, f, 0:16, 16384 j : 16384 (j + 1)], the ids' block is ids[b, f, 0, the same pixels], and
  the output's block is out[b, f, 0:64, 0:17] (it does not move with j).  So position q of a block is pixel
  p = 16384 j + q of frame (b, f), and a chunk's contribution to bucket k, column c is the sum over q of the
  per-pixel term: x[b, f, c, p] (or 1 in the count column) when the pixel's id is k, else 0.
-/
import proofs.«426372_j20083267076319_3_alg».proof.Proof.Gen.KernelIdeal.Frame
import proofs.«426372_j20083267076319_3_alg».proof.Proof.Spec
import proofs.«426372_j20083267076319_3_alg».proof.Proof.Chunk
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## The per-pixel term -/

/-- What pixel `p` of frame (b, f) adds to bucket `k`, column `c`: the embedding's channel (the count column adds 1)
    when the pixel's id is `k`, nothing otherwise. -/
def pixTerm (x : FVec Ideal S4x8x16x65536 .f32) (ids : IVec S4x8x1x65536 32) (b : Fin 4) (f : Fin 8) (k : Fin 64) (c : Fin 17)
    (p : Fin 65536) : EReal :=
  if (ids (ix4 b f (0 : Fin 1) p)).toInt = (k.val : ℤ) then (if h : c.val < 16 then x (ix4 b f (⟨c.val, h⟩ : Fin 16) p) else 1) else 0

/-- The bucket sums and counts side by side are the sum of the per-pixel terms over the frame. -/
theorem segBoth_eq_sum (x : FVec Ideal S4x8x16x65536 .f32) (ids : IVec S4x8x1x65536 32) (b : Fin 4) (f : Fin 8) (k : Fin 64) (c : Fin 17) :
    Cert.TrackMeans.segBoth x ids (ix4 b f k c) = ∑ p : Fin 65536, pixTerm x ids b f k c p := by
  unfold Cert.TrackMeans.segBoth pixTerm
  by_cases h : c.val < 16
  · rw [dif_pos (show ((ix4 b f k c : S4x8x64x17.Idx) 3).val < 16 from h)]
    unfold Cert.TrackMeans.sumAt
    refine Finset.sum_congr rfl (fun p _ => ?_)
    rw [dif_pos h]
  · rw [dif_neg (show ¬((ix4 b f k c : S4x8x64x17.Idx) 3).val < 16 from h)]
    unfold Cert.TrackMeans.countAt
    refine Finset.sum_congr rfl (fun p _ => ?_)
    rw [dif_neg h]

/-! ## The grid point's batch, frame and pixels -/

variable {F : FTy → Type} [FloatOps F]
variable (m : (ℓ : Loc nD τ sig) → Buf (Elt F) ℓ)

theorem lt128 (t : Fin cfg0.N) : t.val < 128 := lt_of_lt_of_eq t.isLt (show cfg0.N = 128 from N_0)

/-- The batch of grid point `t`. -/
def bOf (t : Fin cfg0.N) : Fin 4 := ⟨t.val / 32, by have := lt128 t; omega⟩
/-- The frame of grid point `t`. -/
def fOf (t : Fin cfg0.N) : Fin 8 := ⟨t.val / 4 % 8, Nat.mod_lt _ (by decide)⟩
/-- Position `q` of grid point `t`'s chunk, as a pixel of the frame. -/
def pOf (t : Fin cfg0.N) (q : Fin 16384) : Fin 65536 := ⟨16384 * (t.val % 4) + q.val, by have := q.isLt; omega⟩

/-- The printed index maps, decided over the grid. -/
theorem idx_facts : ∀ t : Fin cfg0.N,
    win0_0.index t (0 : Fin 4) = t.val / 32 ∧ win0_0.index t (1 : Fin 4) = t.val / 4 % 8
    ∧ win0_0.index t (2 : Fin 4) = 0 ∧ win0_0.index t (3 : Fin 4) = t.val % 4
    ∧ win0_1.index t (0 : Fin 4) = t.val / 32 ∧ win0_1.index t (1 : Fin 4) = t.val / 4 % 8
    ∧ win0_1.index t (2 : Fin 4) = 0 ∧ win0_1.index t (3 : Fin 4) = t.val % 4
    ∧ win0_2.index t (0 : Fin 4) = t.val / 32 ∧ win0_2.index t (1 : Fin 4) = t.val / 4 % 8
    ∧ win0_2.index t (2 : Fin 4) = 0 ∧ win0_2.index t (3 : Fin 4) = 0 :=
  (by decide +kernel : ∀ t : Fin grid0.N, _)

/-- The embeddings as the region finds them, [4, 8, 16, 65536]. -/
abbrev xarr (c : Dev nD) : FVec F S4x8x16x65536 .f32 := V m c main_v1
/-- The ids as the region finds them, [4, 8, 1, 65536]. -/
abbrev idarr (c : Dev nD) : IVec S4x8x1x65536 32 := V m c main_v2
/-- The embeddings' block at a grid point. -/
abbrev xblk (c : Dev nD) (t : Fin cfg0.N) : FVec F S1x1x16x16384 .f32 := iblk m c 0 t
/-- The ids' block at a grid point. -/
abbrev idblk (c : Dev nD) (t : Fin cfg0.N) : IVec S1x1x1x16384 32 := iblk m c 1 t

/-- Channel `ch`, position `q` of the embeddings' block is the array at the point's frame and pixel. -/
theorem xblk_apply (c : Dev nD) (t : Fin cfg0.N) (ch : Fin 16) (q : Fin 16384) :
    xblk m c t (ix4 (0 : Fin 1) (0 : Fin 1) ch q) = xarr m c (ix4 (bOf t) (fOf t) ch (pOf t q)) := by
  obtain ⟨e0, e1, e2, e3, -⟩ := idx_facts t
  show ((cfg0.win 0).blk t).view.read (Elt F) (V m c (Pipeline.arrRef spec0 0)) _ = _
  rw [View.read_apply]
  show V m c main_v1 _ = V m c main_v1 _
  congr 1
  funext a; apply Fin.ext
  match a with
  | ⟨0, _⟩ => show win0_0.index t (0 : Fin 4) * 1 + 1 * 0 = t.val / 32; omega
  | ⟨1, _⟩ => show win0_0.index t (1 : Fin 4) * 1 + 1 * 0 = t.val / 4 % 8; omega
  | ⟨2, _⟩ => show win0_0.index t (2 : Fin 4) * 16 + 1 * ch.val = ch.val; omega
  | ⟨3, _⟩ => show win0_0.index t (3 : Fin 4) * 16384 + 1 * q.val = 16384 * (t.val % 4) + q.val; omega

/-- Position `q` of the ids' block is the array at the point's frame and pixel. -/
theorem idblk_apply (c : Dev nD) (t : Fin cfg0.N) (q : Fin 16384) :
    idblk m c t (ix4 (0 : Fin 1) (0 : Fin 1) (0 : Fin 1) q) = idarr m c (ix4 (bOf t) (fOf t) (0 : Fin 1) (pOf t q)) := by
  obtain ⟨-, -, -, -, e0, e1, e2, e3, -⟩ := idx_facts t
  show ((cfg0.win 1).blk t).view.read (Elt F) (V m c (Pipeline.arrRef spec0 1)) _ = _
  rw [View.read_apply]
  show V m c main_v2 _ = V m c main_v2 _
  congr 1
  funext a; apply Fin.ext
  match a with
  | ⟨0, _⟩ => show win0_1.index t (0 : Fin 4) * 1 + 1 * 0 = t.val / 32; omega
  | ⟨1, _⟩ => show win0_1.index t (1 : Fin 4) * 1 + 1 * 0 = t.val / 4 % 8; omega
  | ⟨2, _⟩ => show win0_1.index t (2 : Fin 4) * 1 + 1 * 0 = 0; omega
  | ⟨3, _⟩ => show win0_1.index t (3 : Fin 4) * 16384 + 1 * q.val = 16384 * (t.val % 4) + q.val; omega

end Cert.KernelIdeal.Blocks

namespace Cert.KernelIdeal.Blocks

open Cert.KernelIdeal Cert.KernelIdeal.Gen

variable (m : (ℓ : Loc nD τ sig) → Buf (Elt Ideal) ℓ)

/-- A grid point's contribution is the sum of the per-pixel terms over its chunk's pixels. -/
theorem chunk_eq (c : Dev nD) (t : Fin cfg0.N) (k : Fin 64) (cc : Fin 17) :
    Cert.TrackMeans.chunkAt (idblk m c t) (xblk m c t) k cc
      = ∑ q : Fin 16384, pixTerm (xarr m c) (idarr m c) (bOf t) (fOf t) k cc (pOf t q) := by
  unfold Cert.TrackMeans.chunkAt pixTerm
  refine Finset.sum_congr rfl (fun q _ => ?_)
  rw [idblk_apply m c t q]
  by_cases h : cc.val < 16
  · rw [dif_pos h, dif_pos h, xblk_apply m c t ⟨cc.val, h⟩ q]
  · rw [dif_neg h, dif_neg h]

end Cert.KernelIdeal.Blocks

end
-- ==== Proof.Payload.lean ====
/-
  The kernel body's three stored values, read at an index, at the ideal values.

  The body keeps a 64 × 17 accumulator: bucket k's row holds, in columns 0 … 15, the sum of the embeddings of the pixels
  whose id is k, and in column 16 their count.  At the first chunk of a frame it stores the zero block; at every chunk it
  stores the accumulator plus the chunk's contribution; at the last chunk it stores the accumulator, reshaped, into the
  output block.

  The chunk's contribution is one matrix product, both factors contracted over the 16384 pixels q of the chunk:
    onehot[k, q] = 1 if ids[q] = k else 0   (the ids and the bucket numbers are compared as reals: an integer read as a
                                             real is that integer exactly, so the comparison is the integers' own),
    xext[c, q]   = x[c, q] for c < 16, and 1 for c = 16   (the embeddings with a row of ones under them),
    out[k, c]    = 0 + ∑ q, onehot[k, q] · xext[c, q]  =  ∑ q with ids[q] = k, xext[c, q],
  because 1 · y = y and 0 · y = 0 for every extended real y.
-/
import proofs.«426372_j20083267076319_3_alg».proof.Proof.Gen.KernelIdeal.Skeleton
import proofs.«426372_j20083267076319_3_alg».proof.Proof.Chunk
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The zero block and the reshape -/

/-- The block stored at a frame's first chunk is zero everywhere. -/
theorem pay1_apply (k : Fin 64) (c : Fin 17) : k0_pay1 (F := Ideal) (ix2 k c) = 0 := by
  unfold k0_pay1
  show shapeCast S64x17 (broadcast S64x17 (Scalar.ofBits (F := Ideal) .f32 0x00000000#32)) shapeCasts_S64x17_S64x17 (ix2 k c) = 0
  rw [shapeCast_self]
  exact Ideal.ofBits_zero_f32

/-- The block stored at a frame's last chunk is the accumulator: entry (0, 0, k, c) of the [1, 1, 64, 17] block has the
    row-major position of entry (k, c) of the [64, 17] accumulator. -/
theorem pay3_apply (v27 : Vec Ideal S64x17 .f32) (k : Fin 64) (c : Fin 17) :
    k0_pay3 (F := Ideal) v27 (ix4 (0 : Fin 1) (0 : Fin 1) k c) = v27 (ix2 k c) := by
  unfold k0_pay3
  refine shapeCast_apply v27 shapeCasts_S64x17_S1x1x64x17 (ix4 (0 : Fin 1) (0 : Fin 1) k c) (ix2 k c) ?_
  rw [Shape.rowMajor_val_two, Shape.rowMajor_val_four]
  show k.val * 17 + c.val = ((0 * 1 + 0) * 64 + k.val) * 17 + c.val
  omega

/-! ## The two factors of the chunk's matrix product -/

/-- The one-hot factor: the ids of the chunk, one row broadcast over the 64 buckets, compared as reals with the bucket
    numbers (an iota along the rows), the truth value widened and read as a real. -/
def onehot (v5 : IVec S1x1x1x16384 32) : FVec Ideal S64x16384 .bf16 :=
  truncf .bf16 (sitofp .f32 (extui 32 (cmpf .oeq
    (broadcastTo S64x16384 (sitofp (F := Ideal) .bf16 (shapeCast S1x16384 v5 shapeCasts_S1x1x1x16384_S1x16384))
      broadcasts_S1x16384_S64x16384)
    (sitofp (F := Ideal) .bf16 (iota .tc S64x16384 32 [0] iota_S64x16384_d0_w32))) natLt_1_32)) bitsLt_bf16_f32

/-- The other factor: the chunk's 16 × 16384 embeddings with a row of ones under them. -/
def xext (v13 : FVec Ideal S1x1x16x16384 .f32) : FVec Ideal S17x16384 .bf16 :=
  concatenate S17x16384 0
    [⟨S16x16384, truncf .bf16 (shapeCast S16x16384 v13 shapeCasts_S1x1x16x16384_S16x16384) bitsLt_bf16_f32⟩,
     ⟨S1x16384, broadcast S1x16384 (Scalar.ofBits (F := Ideal) .bf16 0x3F80#16)⟩]
    concatenates_S16x16384_S1x16384_S17x16384_d0

/-- The stored value is the accumulator plus the product of the two factors into the zero block. -/
theorem pay2_eq (v5 : Vec Ideal S1x1x1x16384 .i32) (v13 : Vec Ideal S1x1x16x16384 .f32) (v19 : Vec Ideal S64x17 .f32) :
    k0_pay2 (F := Ideal) v5 v13 v19
      = addf v19 (matmul dot_S64x16384_S17x16384_S64x17_1_1_0_0_n_n none (onehot v5) (xext v13)
          (constant (F := Ideal) S64x17 .f32 0x00000000#32)) := by
  unfold k0_pay2 onehot xext
  exact shapeCast_self _ _

/-- A bucket number below 64, written as a 32-bit word and read back signed, is itself. -/
theorem toInt_ofNat_bucket (k : Fin 64) : (BitVec.ofNat 32 k.val).toInt = (k.val : ℤ) := by
  have hk := k.isLt
  rw [BitVec.toInt_eq_toNat_cond, BitVec.toNat_ofNat]
  split <;> omega

/-- One entry of the one-hot factor, as a function of the id's word: 1 where the id is the bucket's number, else 0. -/
theorem onehot_word (w : BitVec 32) (k : Fin 64) :
    FloatOps.sitofp (F := Ideal) .f32 ((FloatOps.cmpf (F := Ideal) (φ := .bf16) .oeq
        (FloatOps.sitofp (F := Ideal) .bf16 w) (FloatOps.sitofp (F := Ideal) .bf16 (BitVec.ofNat 32 k.val))).setWidth 32)
      = if w.toInt = (k.val : ℤ) then (1 : EReal) else 0 := by
  show ((((Ideal.cmp .oeq ((w.toInt : ℝ) : EReal) (((BitVec.ofNat 32 k.val).toInt : ℝ) : EReal)).setWidth 32).toInt : ℝ) : EReal) = _
  rw [toInt_ofNat_bucket]
  by_cases h : w.toInt = (k.val : ℤ)
  · have hc : Ideal.cmp .oeq ((w.toInt : ℝ) : EReal) ((((k.val : ℤ)) : ℝ) : EReal) = 1#1 := by
      rw [h]; simp [Ideal.cmp]
    rw [hc, if_pos h]
    have : ((1#1 : BitVec 1).setWidth 32).toInt = 1 := by decide
    rw [this]; norm_num
  · have hne : ((w.toInt : ℝ) : EReal) ≠ ((((k.val : ℤ)) : ℝ) : EReal) := by
      intro e; exact h (by exact_mod_cast EReal.coe_eq_coe_iff.mp e)
    have hc : Ideal.cmp .oeq ((w.toInt : ℝ) : EReal) ((((k.val : ℤ)) : ℝ) : EReal) = 0#1 := by
      show BitVec.ofBool (decide (((w.toInt : ℝ) : EReal) = ((((k.val : ℤ)) : ℝ) : EReal))) = 0#1
      rw [decide_eq_false hne]; rfl
    rw [hc, if_neg h]
    have : ((0#1 : BitVec 1).setWidth 32).toInt = 0 := by decide
    rw [this]; norm_num

/-- The one-hot factor at bucket k, pixel q. -/
theorem onehot_apply (v5 : IVec S1x1x1x16384 32) (k : Fin 64) (q : Fin 16384) :
    onehot v5 (ix2 k q)
      = if (v5 (ix4 (0 : Fin 1) (0 : Fin 1) (0 : Fin 1) q)).toInt = (k.val : ℤ) then (1 : EReal) else 0 := by
  have hrow : broadcastTo S64x16384 (sitofp (F := Ideal) .bf16 (shapeCast S1x16384 v5 shapeCasts_S1x1x1x16384_S1x16384))
        broadcasts_S1x16384_S64x16384 (ix2 k q)
      = FloatOps.sitofp (F := Ideal) .bf16 (v5 (ix4 (0 : Fin 1) (0 : Fin 1) (0 : Fin 1) q)) := by
    refine (broadcastTo_1b_ab_apply _ broadcasts_S1x16384_S64x16384 k q).trans ?_
    show FloatOps.sitofp (F := Ideal) .bf16 (shapeCast S1x16384 v5 shapeCasts_S1x1x1x16384_S1x16384 (ix2 (0 : Fin 1) q)) = _
    rw [shapeCast_apply v5 shapeCasts_S1x1x1x16384_S1x16384 (ix2 (0 : Fin 1) q) (ix4 (0 : Fin 1) (0 : Fin 1) (0 : Fin 1) q) (by
      rw [Shape.rowMajor_val_two, Shape.rowMajor_val_four]
      show ((0 * 1 + 0) * 1 + 0) * 16384 + q.val = 0 * 16384 + q.val
      omega)]
  have hiota : iota .tc S64x16384 32 [0] iota_S64x16384_d0_w32 (ix2 k q) = BitVec.ofNat 32 k.val :=
    iota_single_apply .tc S64x16384 32 0 iota_S64x16384_d0_w32 (ix2 k q)
  show FloatOps.sitofp (F := Ideal) .f32 ((FloatOps.cmpf (F := Ideal) (φ := .bf16) .oeq
      (broadcastTo S64x16384 (sitofp (F := Ideal) .bf16 (shapeCast S1x16384 v5 shapeCasts_S1x1x1x16384_S1x16384))
        broadcasts_S1x16384_S64x16384 (ix2 k q))
      (FloatOps.sitofp (F := Ideal) .bf16 (iota .tc S64x16384 32 [0] iota_S64x16384_d0_w32 (ix2 k q)))).setWidth 32) = _
  rw [hrow, hiota]
  exact onehot_word _ k

/-- The other factor at a channel column c < 16, pixel q: the embedding. -/
theorem xext_apply_channel (v13 : FVec Ideal S1x1x16x16384 .f32) (c : Fin 17) (h : c.val < 16) (q : Fin 16384) :
    xext v13 (ix2 c q) = v13 (ix4 (0 : Fin 1) (0 : Fin 1) (⟨c.val, h⟩ : Fin 16) q) := by
  unfold xext
  refine (concatenate_pair_apply_left (0 : Fin S17x16384.rank) _ _ concatenates_S16x16384_S1x16384_S17x16384_d0
    (ix2 c q) rfl (ix2 (⟨c.val, h⟩ : Fin 16) q) (fun b => ?_)).trans ?_
  · match b with
    | ⟨0, _⟩ => rfl
    | ⟨1, _⟩ => rfl
  · show shapeCast S16x16384 v13 shapeCasts_S1x1x16x16384_S16x16384 (ix2 (⟨c.val, h⟩ : Fin 16) q) = _
    refine shapeCast_apply v13 shapeCasts_S1x1x16x16384_S16x16384 _ _ ?_
    rw [Shape.rowMajor_val_two, Shape.rowMajor_val_four]
    show ((0 * 1 + 0) * 16 + c.val) * 16384 + q.val = c.val * 16384 + q.val
    omega

/-- The other factor at the count column c = 16: one. -/
theorem xext_apply_count (v13 : FVec Ideal S1x1x16x16384 .f32) (c : Fin 17) (h : ¬ c.val < 16) (q : Fin 16384) :
    xext v13 (ix2 c q) = 1 := by
  have hc := c.isLt
  unfold xext
  refine (concatenate_pair_apply_right (0 : Fin S17x16384.rank) _ _ concatenates_S16x16384_S1x16384_S17x16384_d0
    (ix2 c q) rfl rfl (ix2 (0 : Fin 1) q) (fun b hb => ?_) ?_).trans ?_
  · match b with
    | ⟨0, _⟩ => exact absurd rfl hb
    | ⟨1, _⟩ => rfl
  · show 0 + 16 = c.val
    omega
  · exact Ideal.ofBits_one_bf16

/-! ## The matrix product at an entry: a sum over the chunk's pixels -/

theorem lhs_axis0 (i : S64x17.Idx) (p : dot_S64x16384_S17x16384_S64x17_1_1_0_0_n_n.contr.Idx) :
    (dot_S64x16384_S17x16384_S64x17_1_1_0_0_n_n.lhsIdx i p 0).val = (i 0).val := by
  unfold DotDims.lhsIdx
  rw [dif_neg (show ¬(0 : Fin S64x16384.rank) ∈ dot_S64x16384_S17x16384_S64x17_1_1_0_0_n_n.lhsBatch by decide),
    dif_pos (show (0 : Fin S64x16384.rank) ∈ dot_S64x16384_S17x16384_S64x17_1_1_0_0_n_n.lhsNonContracting by decide)]
  rfl

theorem lhs_axis1 (i : S64x17.Idx) (p : dot_S64x16384_S17x16384_S64x17_1_1_0_0_n_n.contr.Idx) :
    (dot_S64x16384_S17x16384_S64x17_1_1_0_0_n_n.lhsIdx i p 1).val = (p ⟨0, by decide⟩).val :=
  dot_S64x16384_S17x16384_S64x17_1_1_0_0_n_n.lhsIdx_val_of_single rfl i p

theorem rhs_axis0 (i : S64x17.Idx) (p : dot_S64x16384_S17x16384_S64x17_1_1_0_0_n_n.contr.Idx) :
    (dot_S64x16384_S17x16384_S64x17_1_1_0_0_n_n.rhsIdx i p 0).val = (i 1).val := by
  unfold DotDims.rhsIdx
  rw [dif_neg (show ¬(0 : Fin S17x16384.rank) ∈ dot_S64x16384_S17x16384_S64x17_1_1_0_0_n_n.rhsBatch by decide),
    dif_pos (show (0 : Fin S17x16384.rank) ∈ dot_S64x16384_S17x16384_S64x17_1_1_0_0_n_n.rhsNonContracting by decide)]
  rfl

theorem rhs_axis1 (i : S64x17.Idx) (p : dot_S64x16384_S17x16384_S64x17_1_1_0_0_n_n.contr.Idx) :
    (dot_S64x16384_S17x16384_S64x17_1_1_0_0_n_n.rhsIdx i p 1).val = (p ⟨0, by decide⟩).val :=
  dot_S64x16384_S17x16384_S64x17_1_1_0_0_n_n.rhsIdx_val_of_single rfl i p

/-- Both factors are contracted over their pixel axis and kept on their row axis: entry (k, c) of the product into the
    zero block is ∑ q, A[k, q] · B[c, q]. -/
theorem matmul_rows_apply (A : FVec Ideal S64x16384 .bf16) (B : FVec Ideal S17x16384 .bf16) (k : Fin 64) (c : Fin 17) :
    matmul dot_S64x16384_S17x16384_S64x17_1_1_0_0_n_n none A B (constant (F := Ideal) S64x17 .f32 0x00000000#32) (ix2 k c)
      = ∑ q : Fin 16384, A (ix2 k q) * B (ix2 c q) := by
  refine (Ideal.matmul_constant_zero_apply dot_S64x16384_S17x16384_S64x17_1_1_0_0_n_n none A B (ix2 k c)).trans ?_
  rw [← Equiv.sum_comp (contrEquiv1 dot_S64x16384_S17x16384_S64x17_1_1_0_0_n_n 16384 rfl rfl).symm]
  refine Finset.sum_congr rfl fun q _ => ?_
  have hq := contrEquiv1_symm_val dot_S64x16384_S17x16384_S64x17_1_1_0_0_n_n 16384 rfl rfl q
  have el : dot_S64x16384_S17x16384_S64x17_1_1_0_0_n_n.lhsIdx (ix2 k c)
      ((contrEquiv1 dot_S64x16384_S17x16384_S64x17_1_1_0_0_n_n 16384 rfl rfl).symm q) = ix2 k q :=
    funext fun a => Fin.ext (by
      match a with
      | ⟨0, _⟩ => exact lhs_axis0 _ _
      | ⟨1, _⟩ => exact (lhs_axis1 _ _).trans hq)
  have er : dot_S64x16384_S17x16384_S64x17_1_1_0_0_n_n.rhsIdx (ix2 k c)
      ((contrEquiv1 dot_S64x16384_S17x16384_S64x17_1_1_0_0_n_n 16384 rfl rfl).symm q) = ix2 c q :=
    funext fun a => Fin.ext (by
      match a with
      | ⟨0, _⟩ => exact rhs_axis0 _ _
      | ⟨1, _⟩ => exact (rhs_axis1 _ _).trans hq)
  rw [el, er]

/-! ## The stored value at an entry -/

/-- At every chunk the body stores, at bucket k and column c, the accumulator's entry plus the chunk's contribution. -/
theorem pay2_apply (v5 : Vec Ideal S1x1x1x16384 .i32) (v13 : Vec Ideal S1x1x16x16384 .f32) (v19 : Vec Ideal S64x17 .f32)
    (k : Fin 64) (c : Fin 17) :
    k0_pay2 (F := Ideal) v5 v13 v19 (ix2 k c) = v19 (ix2 k c) + Cert.TrackMeans.chunkAt v5 v13 k c := by
  rw [pay2_eq]
  show v19 (ix2 k c) + matmul dot_S64x16384_S17x16384_S64x17_1_1_0_0_n_n none (onehot v5) (xext v13)
      (constant (F := Ideal) S64x17 .f32 0x00000000#32) (ix2 k c) = _
  rw [matmul_rows_apply]
  refine congrArg (v19 (ix2 k c) + ·) ?_
  unfold Cert.TrackMeans.chunkAt
  refine Finset.sum_congr rfl fun q _ => ?_
  rw [onehot_apply]
  by_cases hid : (v5 (ix4 (0 : Fin 1) (0 : Fin 1) (0 : Fin 1) q)).toInt = (k.val : ℤ)
  · rw [if_pos hid, if_pos hid, one_mul]
    by_cases hc : c.val < 16
    · rw [dif_pos hc]; exact xext_apply_channel v13 c hc q
    · rw [dif_neg hc]; exact xext_apply_count v13 c hc q
  · rw [if_neg hid, if_neg hid, zero_mul]

end Cert.KernelIdeal.Pay

end
-- ==== Proof.Accum.lean ====
/-
  The accumulator across a frame's four chunks, and what the output array ends holding.

  Write acc(t) for the 64 x 17 accumulator after grid point t = 32 b + 4 f + j.  By the case lemmas it is
  0 + chunk(t) when j = 0 and acc(t − 1) + chunk(t) otherwise, entry by entry, where chunk(t) is the sum of the
  per-pixel terms over chunk j of frame (b, f).  So acc(t) is the sum of the per-pixel terms over the first j + 1
  chunks of the frame (induction on t; a frame's points are consecutive), and at j = 3 it is the sum over the whole
  frame: bucket sums and counts side by side.  The points with j = 3 are exactly those that write their output block
  back, block (b, f) of the [4, 8, 64, 17] array, and these 32 blocks tile it: the array ends at `segBoth`.
-/
import proofs.«426372_j20083267076319_3_alg».proof.Proof.Steps
import proofs.«426372_j20083267076319_3_alg».proof.Proof.Blocks
import proofs.«426372_j20083267076319_3_alg».proof.Proof.Payload

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks

/-! ## Sums over the first chunks of a frame -/

/-- The per-pixel term at a pixel NUMBER (nothing beyond the frame's 65536 pixels). -/
def pixN (x : FVec Ideal S4x8x16x65536 .f32) (ids : IVec S4x8x1x65536 32) (b : Fin 4) (f : Fin 8) (k : Fin 64) (cc : Fin 17) (p : ℕ) : EReal :=
  if h : p < 65536 then pixTerm x ids b f k cc ⟨p, h⟩ else 0

/-- The sum of the per-pixel terms over the first `n` chunks of the frame. -/
def firstChunks (x : FVec Ideal S4x8x16x65536 .f32) (ids : IVec S4x8x1x65536 32) (b : Fin 4) (f : Fin 8) (k : Fin 64) (cc : Fin 17) (n : ℕ) : EReal :=
  ∑ j ∈ Finset.range n, ∑ q : Fin 16384, pixN x ids b f k cc (16384 * j + q.val)

/-- All four chunks: the sum over the frame. -/
theorem firstChunks_four (x : FVec Ideal S4x8x16x65536 .f32) (ids : IVec S4x8x1x65536 32) (b : Fin 4) (f : Fin 8) (k : Fin 64) (cc : Fin 17) :
    firstChunks x ids b f k cc 4 = ∑ p : Fin 65536, pixTerm x ids b f k cc p := by
  rw [Cert.TrackMeans.sum_pixels_eq_chunks]
  unfold firstChunks
  rw [← Fin.sum_univ_eq_sum_range (fun j => ∑ q : Fin 16384, pixN x ids b f k cc (16384 * j + q.val)) 4]
  refine Finset.sum_congr rfl (fun j _ => Finset.sum_congr rfl (fun q _ => ?_))
  unfold pixN
  rw [dif_pos (by have := j.isLt; have := q.isLt; omega)]

variable (m : (ℓ : Loc nD τ sig) → Buf (Elt Ideal) ℓ)

/-- A grid point's contribution, over pixel numbers. -/
theorem chunk_eq_N (c : Dev nD) (t : Fin cfg0.N) (k : Fin 64) (cc : Fin 17) :
    Cert.TrackMeans.chunkAt (idblk m c t) (xblk m c t) k cc
      = ∑ q : Fin 16384, pixN (xarr m c) (idarr m c) (bOf t) (fOf t) k cc (16384 * (t.val % 4) + q.val) := by
  rw [chunk_eq]
  refine Finset.sum_congr rfl (fun q _ => ?_)
  unfold pixN
  rw [dif_pos (by have := q.isLt; omega)]
  rfl

/-! ## One step of the accumulator, entry by entry -/

/-- At a frame's first chunk the accumulator is the chunk's contribution. -/
theorem acc_step_first (c : Dev nD) (t : Fin cfg0.N) (h0 : t.val % 4 = 0) (k : Fin 64) (cc : Fin 17) :
    (outsAt0 m c t.val t.isLt).2 (ix2 k cc) = Cert.TrackMeans.chunkAt (idblk m c t) (xblk m c t) k cc := by
  have h1 : ¬t.val % 4 = 3 := by omega
  rw [outsAt0_A m c t h0 h1]
  dsimp only
  refine (congrFun (Steps.acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 k cc)).trans ?_
  refine (Pay.pay2_apply (iblk m c 1 t) (iblk m c 0 t) (k0_pay1 (F := Ideal)) k cc).trans ?_
  rw [Pay.pay1_apply, zero_add]

/-- At a later chunk it is what the point before left plus the chunk's contribution. -/
theorem acc_step_next (c : Dev nD) (t : Fin cfg0.N) (h0 : ¬t.val % 4 = 0) (k : Fin 64) (cc : Fin 17) :
    (outsAt0 m c t.val t.isLt).2 (ix2 k cc)
      = (outsAt0 m c (t.val - 1) (Nat.lt_of_le_of_lt (Nat.sub_le _ _) t.isLt)).2 (ix2 k cc)
        + Cert.TrackMeans.chunkAt (idblk m c t) (xblk m c t) k cc := by
  by_cases h1 : t.val % 4 = 3
  · rw [outsAt0_C m c t h0 h1]
    dsimp only
    refine (congrFun (Steps.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 k cc)).trans ?_
    exact Pay.pay2_apply (iblk m c 1 t) (iblk m c 0 t) (outsAt0 m c (t.val - 1) (Nat.lt_of_le_of_lt (Nat.sub_le _ _) t.isLt)).2 k cc
  · rw [outsAt0_B m c t h0 h1]
    dsimp only
    refine (congrFun (Steps.acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 k cc)).trans ?_
    exact Pay.pay2_apply (iblk m c 1 t) (iblk m c 0 t) (outsAt0 m c (t.val - 1) (Nat.lt_of_le_of_lt (Nat.sub_le _ _) t.isLt)).2 k cc

/-- At a frame's last chunk the output block is the accumulator, entry by entry. -/
theorem out_step_last (c : Dev nD) (t : Fin cfg0.N) (h3 : t.val % 4 = 3) (k : Fin 64) (cc : Fin 17) :
    (outsAt0 m c t.val t.isLt).1 (ix4 (0 : Fin 1) (0 : Fin 1) k cc) = (outsAt0 m c t.val t.isLt).2 (ix2 k cc) := by
  have h0 : ¬t.val % 4 = 0 := by omega
  rw [outsAt0_C m c t h0 h3]
  dsimp only
  refine (congrFun (Steps.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2) (ix4 (0 : Fin 1) (0 : Fin 1) k cc)).trans ?_
  refine (Pay.pay3_apply _ k cc).trans ?_
  exact (congrFun (Steps.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2) (ix2 k cc)).symm

/-! ## The accumulator is the sum over the frame's chunks so far -/

theorem acc_eq (c : Dev nD) : ∀ (n : ℕ) (h : n < cfg0.N) (k : Fin 64) (cc : Fin 17),
    (outsAt0 m c n h).2 (ix2 k cc)
      = firstChunks (xarr m c) (idarr m c) (bOf ⟨n, h⟩) (fOf ⟨n, h⟩) k cc (n % 4 + 1) := by
  intro n
  induction n with
  | zero =>
    intro h k cc
    have s : (outsAt0 m c 0 h).2 (ix2 k cc) = Cert.TrackMeans.chunkAt (idblk m c ⟨0, h⟩) (xblk m c ⟨0, h⟩) k cc :=
      acc_step_first m c ⟨0, h⟩ rfl k cc
    rw [s, chunk_eq_N]
    unfold firstChunks
    rw [show (0 % 4 + 1) = 1 from rfl, Finset.sum_range_one]
    rfl
  | succ n ih =>
    intro h k cc
    have hN : n + 1 < 128 := lt_of_lt_of_eq h (show cfg0.N = 128 from N_0)
    by_cases h0 : (n + 1) % 4 = 0
    · have s : (outsAt0 m c (n + 1) h).2 (ix2 k cc) = Cert.TrackMeans.chunkAt (idblk m c ⟨n + 1, h⟩) (xblk m c ⟨n + 1, h⟩) k cc :=
        acc_step_first m c ⟨n + 1, h⟩ h0 k cc
      rw [s, chunk_eq_N]
      unfold firstChunks
      rw [show ((n + 1) % 4 + 1) = 1 from by omega, Finset.sum_range_one]
      dsimp only
      rw [h0]
    · have s : (outsAt0 m c (n + 1) h).2 (ix2 k cc)
            = (outsAt0 m c n (Nat.lt_of_succ_lt h)).2 (ix2 k cc)
              + Cert.TrackMeans.chunkAt (idblk m c ⟨n + 1, h⟩) (xblk m c ⟨n + 1, h⟩) k cc :=
        acc_step_next m c ⟨n + 1, h⟩ h0 k cc
      have eb : bOf ⟨n + 1, h⟩ = bOf ⟨n, Nat.lt_of_succ_lt h⟩ := Fin.ext (by show (n + 1) / 32 = n / 32; omega)
      have ef : fOf ⟨n + 1, h⟩ = fOf ⟨n, Nat.lt_of_succ_lt h⟩ := Fin.ext (by show (n + 1) / 4 % 8 = n / 4 % 8; omega)
      rw [s, ih (Nat.lt_of_succ_lt h) k cc, chunk_eq_N, eb, ef]
      unfold firstChunks
      have e4 : (n + 1) % 4 = n % 4 + 1 := by omega
      conv_rhs => rw [e4, Finset.sum_range_succ]
      dsimp only
      rw [e4]

/-! ## What the points that write back write -/

/-- Entry (k, cc) of the block a frame's last point writes back is the frame's bucket (k, cc). -/
theorem out_at (c : Dev nD) (t : Fin cfg0.N) (h3 : t.val % 4 = 3) (k : Fin 64) (cc : Fin 17) :
    (outsAt0 m c t.val t.isLt).1 (ix4 (0 : Fin 1) (0 : Fin 1) k cc)
      = Cert.TrackMeans.segBoth (xarr m c) (idarr m c) (ix4 (bOf t) (fOf t) k cc) := by
  rw [out_step_last m c t h3 k cc, acc_eq m c t.val t.isLt k cc, h3, segBoth_eq_sum, ← firstChunks_four]

/-- The printed index map of the output window at a point: block (b, f, 0, 0). -/
theorem out_emb (t : Fin cfg0.N) (y : S1x1x64x17.Idx) :
    ((cfg0.win 2).blk t).view.emb y = (ix4 (bOf t) (fOf t) (y 2) (y 3) : S4x8x64x17.Idx) := by
  obtain ⟨-, -, -, -, -, -, -, -, e0, e1, e2, e3⟩ := idx_facts t
  funext a; apply Fin.ext
  match a with
  | ⟨0, _⟩ => show win0_2.index t (0 : Fin 4) * 1 + 1 * (y 0).val = t.val / 32; have : (y 0).val < 1 := (y 0).isLt; omega
  | ⟨1, _⟩ => show win0_2.index t (1 : Fin 4) * 1 + 1 * (y 1).val = t.val / 4 % 8; have : (y 1).val < 1 := (y 1).isLt; omega
  | ⟨2, _⟩ => show win0_2.index t (2 : Fin 4) * 64 + 1 * (y 2).val = (y 2).val; omega
  | ⟨3, _⟩ => show win0_2.index t (3 : Fin 4) * 17 + 1 * (y 3).val = (y 3).val; omega

/-- What a point writes back is its block of the side-by-side bucket array. -/
theorem flushed_eq (c : Dev nD) (t : Fin cfg0.N) (hf : (cfg0.win 2).flush t = true) :
    (dats m 0 c).flushed 2 t
      = ((cfg0.win 2).blk t).view.read (Elt Ideal) (Cert.TrackMeans.segBoth (xarr m c) (idarr m c)) := by
  have h3 : t.val % 4 = 3 := (flush0_2 t).mp hf
  show (cfg0.win 2).cut (grid0.coords t) ((dats m 0 c).after 2 t) = _
  rw [after0_2]
  funext y
  show (outsAt0 m c t.val t.isLt).1 y = Cert.TrackMeans.segBoth (xarr m c) (idarr m c) (((cfg0.win 2).blk t).view.emb y)
  have hy : (y : S1x1x64x17.Idx) = ix4 (0 : Fin 1) (0 : Fin 1) (y 2) (y 3) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
    | ⟨3, _⟩ => rfl
  rw [out_emb t y, hy]
  exact out_at m c t h3 (y 2) (y 3)

/-- An index of the array is in point `t`'s block iff each coordinate is in the block's range. -/
theorem mem_blk (t : Fin cfg0.N) (i : S4x8x64x17.Idx) :
    i ∈ ((cfg0.win 2).blk t).view.set ↔ ∀ a : Fin 4, win0_2.index t a * S1x1x64x17.size a ≤ (i a).val ∧ (i a).val < win0_2.index t a * S1x1x64x17.size a + S1x1x64x17.size a := by
  show i ∈ ((View.whole main_v3).slice (win0_2.rect t)).set ↔ _
  rw [View.set_slice_whole, Rect.mem_set_unit]
  exact Iff.rfl

/-- So the output array ends holding the bucket sums and counts side by side. -/
theorem final_out (c : Dev nD) : (dats m 0 c).arrAt 2 cfg0.N = Cert.TrackMeans.segBoth (xarr m c) (idarr m c) :=
  (dats m 0 c).arrAt_eq_of_cover 2 _ (flushed_eq m c) fun i => by
    have hb : (i 0).val < 4 := (i 0).isLt
    have hf : (i 1).val < 8 := (i 1).isLt
    have hk : (i 2).val < 64 := (i 2).isLt
    have hc : (i 3).val < 17 := (i 3).isLt
    have hN : cfg0.N = 128 := N_0
    refine ⟨⟨32 * (i 0).val + 4 * (i 1).val + 3, by omega⟩, (flush0_2 _).mpr (by show (32 * (i 0).val + 4 * (i 1).val + 3) % 4 = 3; omega), ?_⟩
    rw [mem_blk]
    obtain ⟨-, -, -, -, -, -, -, -, e0, e1, e2, e3⟩ := idx_facts ⟨32 * (i 0).val + 4 * (i 1).val + 3, by omega⟩
    intro a
    match a with
    | ⟨0, _⟩ => show win0_2.index _ (0 : Fin 4) * 1 ≤ (i 0).val ∧ (i 0).val < win0_2.index _ (0 : Fin 4) * 1 + 1; rw [e0]; show (32 * (i 0).val + 4 * (i 1).val + 3) / 32 * 1 ≤ (i 0).val ∧ (i 0).val < (32 * (i 0).val + 4 * (i 1).val + 3) / 32 * 1 + 1; omega
    | ⟨1, _⟩ => show win0_2.index _ (1 : Fin 4) * 1 ≤ (i 1).val ∧ (i 1).val < win0_2.index _ (1 : Fin 4) * 1 + 1; rw [e1]; show (32 * (i 0).val + 4 * (i 1).val + 3) / 4 % 8 * 1 ≤ (i 1).val ∧ (i 1).val < (32 * (i 0).val + 4 * (i 1).val + 3) / 4 % 8 * 1 + 1; omega
    | ⟨2, _⟩ => show win0_2.index _ (2 : Fin 4) * 64 ≤ (i 2).val ∧ (i 2).val < win0_2.index _ (2 : Fin 4) * 64 + 64; rw [e2]; omega
    | ⟨3, _⟩ => show win0_2.index _ (3 : Fin 4) * 17 ≤ (i 3).val ∧ (i 3).val < win0_2.index _ (3 : Fin 4) * 17 + 17; rw [e3]; omega

end Cert.KernelIdeal.Accum

end
-- ==== Proof.Columns.lean ====
/-
  The sums and the counts are the columns of the side-by-side array. `segBoth x ids` is [4, 8, 64, 17]: at (b, f, k, c) it
  reads S(b, f, k, c) when c < 16 and N(b, f, k) at c = 16. A unit-stride slice reads its operand at offset + coordinate on
  every axis: the slice [0:4, 0:8, 0:64, 0:16] keeps the coordinates, all its columns are below 16, so it is the sums; the
  slice [0:4, 0:8, 0:64, 16:17] reads column 16, the count, and the reshape [4, 8, 64, 1] → [4, 8, 64] drops the unit axis
  without moving the row-major position ((b·8 + f)·64 + k)·1 + 0 = (b·8 + f)·64 + k.
-/
import proofs.«426372_j20083267076319_3_alg».proof.Proof.Spec
import Idealize.ShloMosaic.Lib.ValueIdx
import Idealize.ShloMosaic.Lib.Pipeline.Value

noncomputable section

namespace Cert.TrackMeans

open Idealize.ShloMosaic Idealize.ShloMosaic.ValueIdx

/-- A column below 16 of the side-by-side array is a sum. -/
theorem segBoth_sum (x : FVec Ideal S4x8x16x65536 .f32) (ids : IVec S4x8x1x65536 32)
    (b : Fin 4) (f : Fin 8) (k : Fin 64) (c : Fin 17) (hc : c.val < 16) :
    segBoth x ids (ix4 b f k c) = sumAt x ids b f k ⟨c.val, hc⟩ := by
  unfold segBoth
  exact dif_pos hc

/-- Column 16 of the side-by-side array is the count. -/
theorem segBoth_count (x : FVec Ideal S4x8x16x65536 .f32) (ids : IVec S4x8x1x65536 32)
    (b : Fin 4) (f : Fin 8) (k : Fin 64) (c : Fin 17) (hc : ¬ c.val < 16) :
    segBoth x ids (ix4 b f k c) = countAt ids b f k := by
  unfold segBoth
  exact dif_neg hc

/-- Columns 0 … 15 of the side-by-side array are the sums. -/
theorem sums_columns (x : FVec Ideal S4x8x16x65536 .f32) (ids : IVec S4x8x1x65536 32)
    (h : S4x8x64x17.Slices ![0, 0, 0, 0] S4x8x64x16) :
    extractStridedSlice S4x8x64x16 ![0, 0, 0, 0] (segBoth x ids) h = segSums x ids := by
  funext j
  -- j's coordinates, each over its literal extent
  obtain ⟨a, b, c, d, rfl⟩ : ∃ (a : Fin 4) (b : Fin 8) (c : Fin 64) (d : Fin 16), j = ix4 a b c d :=
    ⟨j 0, j 1, j 2, j 3, eq_ix4 j⟩
  have hd : d.val < 16 := d.isLt
  have hd' : d.val < 17 := by omega
  -- offset 0 on every axis: the slice reads the operand at j's own coordinates
  have hk : ∀ e : Fin S4x8x64x17.rank, ((ix4 a b c (⟨d.val, hd'⟩ : Fin 17)) e).val
      = (![0, 0, 0, 0] : Fin S4x8x64x17.rank → Nat) e + ((ix4 a b c d) (e.cast h.1.symm)).val := by
    intro e
    fin_cases e <;> simp
  refine (extractStridedSlice_apply ![0, 0, 0, 0] (segBoth x ids) h (ix4 a b c d)
    (ix4 a b c (⟨d.val, hd'⟩ : Fin 17)) hk).trans ?_
  -- a column below 16 is a sum
  exact segBoth_sum x ids a b c _ hd

/-- Column 16 of the side-by-side array, its unit axis dropped, is the counts. -/
theorem count_column (x : FVec Ideal S4x8x16x65536 .f32) (ids : IVec S4x8x1x65536 32)
    (h' : S4x8x64x17.Slices ![0, 0, 0, 16] S4x8x64x1) (h'' : S4x8x64x1.ShapeCasts S4x8x64) :
    shapeCast S4x8x64 (extractStridedSlice S4x8x64x1 ![0, 0, 0, 16] (segBoth x ids) h') h'' = segCounts ids := by
  funext j
  -- j's coordinates, each over its literal extent
  obtain ⟨a, b, c, rfl⟩ : ∃ (a : Fin 4) (b : Fin 8) (c : Fin 64), j = ix3 a b c := ⟨j 0, j 1, j 2, eq_ix3 j⟩
  -- the reshape keeps the row-major position: (a, b, c) comes from (a, b, c, 0)
  refine (shapeCast_apply _ h'' (ix3 a b c) (ix4 a b c (0 : Fin 1)) (by
        rw [Shape.rowMajor_val_four, Shape.rowMajor_val_three]
        show ((a.val * 8 + b.val) * 64 + c.val) * 1 + 0 = (a.val * 8 + b.val) * 64 + c.val
        omega)).trans ?_
  -- offset 16 on the last axis: the slice's one column is column 16
  have hk : ∀ e : Fin S4x8x64x17.rank, ((ix4 a b c (⟨16, by decide⟩ : Fin 17)) e).val
      = (![0, 0, 0, 16] : Fin S4x8x64x17.rank → Nat) e + ((ix4 a b c (0 : Fin 1)) (e.cast h'.1.symm)).val := by
    intro e
    fin_cases e <;> simp
  have key := extractStridedSlice_apply ![0, 0, 0, 16] (segBoth x ids) h' (ix4 a b c (0 : Fin 1))
    (ix4 a b c (⟨16, by decide⟩ : Fin 17)) hk
  -- column 16 is the count
  exact key.trans (segBoth_count x ids a b c _ (by decide))

end Cert.TrackMeans

end
-- ==== Proof.HostSide.lean ====
/-
  The host operations around the kernel's region, and the kernel program's result.

  Before the region three reshapes lay each frame's 256 x 256 pixels on one axis: the region finds the embeddings as
  `pixels e` and the ids as `pixelIds t`.  After the region the program slices the region's [4, 8, 64, 17] result into
  its first 16 columns (the sums) and its last column (the counts) and applies the operations of `tail` to them.
  The region's result is the bucket sums and counts side by side, so the program returns `answer e t`.
-/
import proofs.«426372_j20083267076319_3_alg».proof.Proof.Accum
import proofs.«426372_j20083267076319_3_alg».proof.Proof.Columns
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.HostSide

open Cert.KernelIdeal Cert.KernelIdeal.Gen

variable (m : (ℓ : Loc nD τ sig) → Buf (Elt Ideal) ℓ) (ρ : Dev nD → PrngReg)

/-- The embeddings as the region finds them: each frame's pixels on one axis. -/
theorem entry_x (c : Dev nD) :
    Blocks.xarr m c = Cert.TrackMeans.pixels (m ((c : Thread nD τ).loc main_arg0)) := by
  show StableHlo.after hostOps0 (fun b => m (c, b)) (Proc.devRef .tc main_v1) = _
  after_results
  rfl

/-- The ids as the region finds them: each frame's pixels on one axis. -/
theorem entry_ids (c : Dev nD) :
    Blocks.idarr m c = Cert.TrackMeans.pixelIds (m ((c : Thread nD τ).loc main_arg1)) := by
  show StableHlo.after hostOps0 (fun b => m (c, b)) (Proc.devRef .tc main_v2) = _
  after_results
  rfl

set_option maxHeartbeats 4000000 in
/-- The operations after the region, applied to what the region left in its result array `G`: the shared tail of
    `G`'s first 16 columns and its last column. -/
theorem tail_result (c : Dev nD) (G : FVec Ideal S4x8x64x17 .f32) (hG : (dats m 0 c).arrAt 2 cfg0.N = G) :
    Pipeline.afterTail₀ cfgs (dats m) 0 (V0 m) [hostOps1, hostOps1_1, hostOps1_2, hostOps1_3] c main_v36
      = Cert.TrackMeans.tail
          (extractStridedSlice S4x8x64x16 ![0, 0, 0, 0] G slices_S4x8x64x17_S4x8x64x16_0_0_0_0)
          (shapeCast S4x8x64 (extractStridedSlice S4x8x64x1 ![0, 0, 0, 16] G slices_S4x8x64x17_S4x8x64x1_0_0_0_16) shapeCasts_S4x8x64x1_S4x8x64) := by
  have hw : Pipeline.withArrays (cfgs 0).spec c (V0 m c) (fun w => (dats m 0 c).arrAt w (cfgs 0).N) (Proc.devRef .tc main_v3) = G :=
    (Pipeline.withArrays_arr spec0 launch0.win.arr_inj c _ _ 2).trans hG
  unfold Pipeline.afterTail₀
  simp only [hostOps1, hostOps1_1, hostOps1_2, hostOps1_3, List.flatten_cons, List.flatten_nil, List.append_nil, List.cons_append, List.nil_append]
  after_results_simp
  rw [hw]
  unfold Cert.TrackMeans.tail
  rfl

/-- The kernel program's result is the answer of its two arguments. -/
theorem result_eq (c : Dev nD) :
    Pipeline.afterTail₀ cfgs (dats m) 0 (V0 m) [hostOps1, hostOps1_1, hostOps1_2, hostOps1_3] c main_v36
      = Cert.TrackMeans.answer (m ((c : Thread nD τ).loc main_arg0)) (m ((c : Thread nD τ).loc main_arg1)) := by
  rw [tail_result m c _ (Accum.final_out m c)]
  have hs := Cert.TrackMeans.sums_columns (Blocks.xarr m c) (Blocks.idarr m c) slices_S4x8x64x17_S4x8x64x16_0_0_0_0
  have hc := Cert.TrackMeans.count_column (Blocks.xarr m c) (Blocks.idarr m c) slices_S4x8x64x17_S4x8x64x1_0_0_0_16 shapeCasts_S4x8x64x1_S4x8x64
  rw [hs, hc, entry_x, entry_ids]
  rfl

/-- Every weakly fair execution of the kernel program terminates with its result at the answer of the arguments,
    and the arguments unchanged. -/
theorem run : θ_run defs (onTc (τ := τ) (main (F := Ideal))) ⟨m, fun _ => 0, ρ⟩ fun r => ∀ c : Dev nD,
      r.2.mem ((c.tc : Thread nD τ).loc main_v36)
        = Cert.TrackMeans.answer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v36 (Pipeline.mem_restRefs_of main_v36 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.HostSide

end
-- ==== Proof.lean ====
/-
  The kernel and the reference compute the same number: the mean, over valid consecutive-frame pairs, of the squared
  distance between the per-track mean embeddings of the two frames (`Cert.TrackMeans.answer`, Proof/Spec.lean).

  Both programs first form, for every batch b, frame f and track id k < 64, the sum S(b, f, k, ·) of the embeddings of
  the frame's pixels whose id is k and the number N(b, f, k) of those pixels, and then apply the same operations to
  S and N.  They differ only in how S and N are formed.

  * The kernel walks a frame in four chunks of 16384 pixels and, per chunk, multiplies the 64 x 16384 one-hot matrix of
    the ids (entry (k, q) is 1 when pixel q's id is k) with the 17 x 16384 matrix of the embeddings extended by a row
    of ones, contracting the pixels; it accumulates the four 64 x 17 products.  Over the extended reals entry (k, c)
    of the accumulated product is the sum over the frame's pixels of [id = k] · x[c, p]: the bucket sum in columns
    c < 16, the count in column 16 (Proof/Payload.lean, Proof/Accum.lean).  No hypothesis on the inputs is needed.
  * The reference scatter-adds every pixel's embedding (and a 1) into row 64 (8 b + f) + id of a 2048-row table.  When
    every id lies in [0, 64) — the precondition — row 64 (8 b + f) + k collects exactly the pixels of frame (b, f)
    whose id is k (Proof/RefBuckets.lean); an id outside that range would land in another frame's rows, which is why
    the range is assumed.

  A sum over a set of pixels and the sum over all pixels of the same terms with zeros elsewhere are equal in any
  commutative monoid, so neither side needs the embeddings to be finite.
-/
import proofs.«426372_j20083267076319_3_alg».proof.Defs
import proofs.«426372_j20083267076319_3_alg».proof.Proof.Gen.Kernel
import proofs.«426372_j20083267076319_3_alg».proof.Proof.Gen.Kernel.Skeleton
import proofs.«426372_j20083267076319_3_alg».proof.Proof.Gen.Kernel.Launch
import proofs.«426372_j20083267076319_3_alg».proof.Proof.Gen.Kernel.Points
import proofs.«426372_j20083267076319_3_alg».proof.Proof.Gen.Kernel.Frame
import proofs.«426372_j20083267076319_3_alg».proof.Proof.Gen.KernelIdeal
import proofs.«426372_j20083267076319_3_alg».proof.Proof.Gen.KernelIdeal.Skeleton
import proofs.«426372_j20083267076319_3_alg».proof.Proof.Gen.KernelIdeal.Launch
import proofs.«426372_j20083267076319_3_alg».proof.Proof.Gen.KernelIdeal.Points
import proofs.«426372_j20083267076319_3_alg».proof.Proof.Gen.KernelIdeal.Frame
import proofs.«426372_j20083267076319_3_alg».proof.Proof.Gen.ReferenceIdeal
import proofs.«426372_j20083267076319_3_alg».proof.Proof.Gen.Pre_finite_inputs
import proofs.«426372_j20083267076319_3_alg».proof.Proof.RefRun
import proofs.«426372_j20083267076319_3_alg».proof.Proof.RefRead
import proofs.«426372_j20083267076319_3_alg».proof.Proof.Spec
import proofs.«426372_j20083267076319_3_alg».proof.Proof.IdRange
import proofs.«426372_j20083267076319_3_alg».proof.Proof.RefTail
import proofs.«426372_j20083267076319_3_alg».proof.Proof.RefBuckets
import proofs.«426372_j20083267076319_3_alg».proof.Proof.HostSide
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition both programs end at `answer` of the arguments: the kernel by its accumulated one-hot
    products, the reference because ids in [0, 64) keep every pixel's scatter row inside its own frame's 64 rows. -/
theorem algebraic : Cert.algebraic_KernelIdeal_ReferenceIdeal := by
  intro m ρ m' ρ' hpre hagree
  refine ⟨fun c => Cert.TrackMeans.answer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HostSide.run m ρ, ?_⟩
  refine (θ_run Cert.ReferenceIdeal.defs _ _).mono (fun _ h c => ⟨(h c).1.trans ?_, (h c).2.1, (h c).2.2⟩)
    (Cert.ReferenceIdeal.Value.run (F := Ideal) m' ρ')
  have hr := Cert.TrackMeans.ids_in_range (F := Ideal) _ _ (hpre c)
  rw [Cert.ReferenceIdeal.Read.val_main_v48_eq, (hagree c).1, (hagree c).2, Cert.ReferenceIdeal.RefValue.ref_tail,
    Cert.ReferenceIdeal.RefValue.sums_eq _ _ hr, Cert.ReferenceIdeal.RefValue.counts_eq _ hr]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
